-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_49" .f32 0x3CA72F05#32 ((1 / 49 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x224x224 : Shape := ⟨4, ![4, 128, 224, 224]⟩
abbrev S1 : Shape := ⟨1, ![1]⟩
abbrev S_ : Shape := ⟨0, ![]⟩

class Facts : Prop where
  bcast_S_S4x128x224x224 : S_.BroadcastsInDim S4x128x224x224 (![] : Fin 0 → Fin S4x128x224x224.rank)
  reducesTo_S4x128x224x224_S_d0_1_2_3 : S4x128x224x224.ReducesTo [0, 1, 2, 3] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S4x128x224x224 .f32) (main_arg1 : FVec F S1 .f32) : IVec S_ 1 :=
  let main_v0 : FVec F S4x128x224x224 .f32 := Host.absf main_arg0
  let main_cst : FVec F S_ .f32 := constant S_ .f32 0x7F800000#32
  let main_v1 : FVec F S4x128x224x224 .f32 := broadcastInDim S4x128x224x224 ![] bcast_S_S4x128x224x224 main_cst
  let main_v2 : IVec S4x128x224x224 1 := cmpf .olt main_v0 main_v1
  let main_c : IVec S_ 1 := constantI S_ 1 1#1
  let main_v3 : IVec S_ 1 := (fun x v => Host.reduce IntOp.andi x v reducesTo_S4x128x224x224_S_d0_1_2_3 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S4x128x224x224 : Shape := ⟨4, ![4, 128, 224, 224]⟩
abbrev S1 : Shape := ⟨1, ![1]⟩
abbrev S4x128x32x7x32x7 : Shape := ⟨6, ![4, 128, 32, 7, 32, 7]⟩
abbrev S4x32x32x7x7x128 : Shape := ⟨6, ![4, 32, 32, 7, 7, 128]⟩
abbrev S4096x49x128 : Shape := ⟨3, ![4096, 49, 128]⟩
abbrev S4096x128x128 : Shape := ⟨3, ![4096, 128, 128]⟩
abbrev S32x49x128 : Shape := ⟨3, ![32, 49, 128]⟩
abbrev S32x128x128 : Shape := ⟨3, ![32, 128, 128]⟩
abbrev S32x128 : Shape := ⟨2, ![32, 128]⟩
abbrev S32x128x1 : Shape := ⟨3, ![32, 128, 1]⟩
abbrev S32x1x128 : Shape := ⟨3, ![32, 1, 128]⟩
abbrev S_ : Shape := ⟨0, ![]⟩
abbrev S4x1024x128x128 : Shape := ⟨4, ![4, 1024, 128, 128]⟩

abbrev nBuf : Space → Nat
  | .hbm => 18
  | .vmem => 8
  | .smem => 0
  | _ => 0

abbrev bufTy : (tb : Table) → Fin (tcTables nBuf tb) → BufTy
  | .hbm, ⟨0, _⟩ => ⟨S4x128x224x224, .f32⟩
  | .hbm, ⟨1, _⟩ => ⟨S1, .f32⟩
  | .hbm, ⟨2, _⟩ => ⟨S4x128x32x7x32x7, .f32⟩
  | .hbm, ⟨3, _⟩ => ⟨S4x32x32x7x7x128, .f32⟩
  | .hbm, ⟨4, _⟩ => ⟨S4096x49x128, .f32⟩
  | .hbm, ⟨5, _⟩ => ⟨S4096x128x128, .f32⟩
  | .hbm, ⟨6, _⟩ => ⟨S4096x128x128, .f32⟩
  | .hbm, ⟨7, _⟩ => ⟨S4096x49x128, .f32⟩
  | .hbm, ⟨8, _⟩ => ⟨S4x32x32x7x7x128, .f32⟩
  | .hbm, ⟨9, _⟩ => ⟨S4x128x32x7x32x7, .f32⟩
  | .hbm, ⟨10, _⟩ => ⟨S4x128x224x224, .f32⟩
  | .hbm, ⟨11, _⟩ => ⟨S_, .f32⟩
  | .hbm, ⟨12, _⟩ => ⟨S4x128x224x224, .f32⟩
  | .hbm, ⟨13, _⟩ => ⟨S4x128x224x224, .f32⟩
  | .hbm, ⟨14, _⟩ => ⟨S4x128x224x224, .f32⟩
  | .hbm, ⟨15, _⟩ => ⟨S4x128x224x224, .f32⟩
  | .hbm, ⟨16, _⟩ => ⟨S4x1024x128x128, .f32⟩
  | .hbm, ⟨17, _⟩ => ⟨S4x1024x128x128, .f32⟩
  | .local _ .vmem, ⟨0, _⟩ => ⟨S32x49x128, .f32⟩
  | .local _ .vmem, ⟨1, _⟩ => ⟨S32x49x128, .f32⟩
  | .local _ .vmem, ⟨2, _⟩ => ⟨S32x128x128, .f32⟩
  | .local _ .vmem, ⟨3, _⟩ => ⟨S32x128x128, .f32⟩
  | .local _ .vmem, ⟨4, _⟩ => ⟨S32x128x128, .f32⟩
  | .local _ .vmem, ⟨5, _⟩ => ⟨S32x128x128, .f32⟩
  | .local _ .vmem, ⟨6, _⟩ => ⟨S32x49x128, .f32⟩
  | .local _ .vmem, ⟨7, _⟩ => ⟨S32x49x128, .f32⟩
  | _, _ => ⟨S4x128x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x49x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x49x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x128x224x224_S4x128x32x7x32x7 : S4x128x224x224.ShapeCasts S4x128x32x7x32x7
  transposes_S4x128x32x7x32x7_S4x32x32x7x7x128_0_2_4_3_5_1 : S4x128x32x7x32x7.Transposes [0, 2, 4, 3, 5, 1] S4x32x32x7x7x128
  shapeCasts_S4x32x32x7x7x128_S4096x49x128 : S4x32x32x7x7x128.ShapeCasts S4096x49x128
  inb_S32x49x128_S32x49x128_0_0_0 : ∀ a, (![0, 0, 0] : Fin 3 → Nat) a + S32x49x128.size a ≤ S32x49x128.size a
  h_S32x49x128 : 0 < S32x49x128.numel
  shapeCasts_S32x49x128_S32x49x128 : S32x49x128.ShapeCasts S32x49x128
  reduces_S32x128x128_S32x128 : S32x128x128.Reduces [2] S32x128
  shapeCasts_S32x128_S32x128x1 : S32x128.ShapeCasts S32x128x1
  broadcasts_S32x128x1_S32x128x128 : S32x128x1.Broadcasts S32x128x128
  reduces_S32x49x128_S32x128 : S32x49x128.Reduces [1] S32x128
  shapeCasts_S32x128_S32x1x128 : S32x128.ShapeCasts S32x1x128
  bitsLt_bf16_f32 : FTy.bits .bf16 < FTy.bits .f32
  inb_S32x128x128_S32x128x128_0_0_0 : ∀ a, (![0, 0, 0] : Fin 3 → Nat) a + S32x128x128.size a ≤ S32x128x128.size a
  h_S32x128x128 : 0 < S32x128x128.numel
  shapeCasts_S4096x49x128_S4x32x32x7x7x128 : S4096x49x128.ShapeCasts S4x32x32x7x7x128
  transposes_S4x32x32x7x7x128_S4x128x32x7x32x7_0_5_1_3_2_4 : S4x32x32x7x7x128.Transposes [0, 5, 1, 3, 2, 4] S4x128x32x7x32x7
  shapeCasts_S4x128x32x7x32x7_S4x128x224x224 : S4x128x32x7x32x7.ShapeCasts S4x128x224x224
  shapeCasts_S1_S_ : S1.ShapeCasts S_
  bcast_S_S4x128x224x224 : S_.BroadcastsInDim S4x128x224x224 (![] : Fin 0 → Fin S4x128x224x224.rank)
  shapeCasts_S4096x128x128_S4x1024x128x128 : S4096x128x128.ShapeCasts S4x1024x128x128
  dot_S32x49x128_S32x49x128_S32x128x128_1_1_2_2_0_0_wf : DotDims.WF S32x49x128 S32x49x128 S32x128x128 [1] [1] [2] [2] [0] [0]
  dot_S32x1x128_S32x1x128_S32x128x128_1_1_2_2_0_0_wf : DotDims.WF S32x1x128 S32x1x128 S32x128x128 [1] [1] [2] [2] [0] [0]
  dot_S32x49x128_S32x128x128_S32x49x128_2_2_1_1_0_0_wf : DotDims.WF S32x49x128 S32x128x128 S32x49x128 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x49x128.size a ≤ S4096x49x128.size a
  hwx0_0 : ∀ i : grid0.Coords, EltTy.bits .f32 = 32 ∨ (Rect.block (s := S4096x49x128) S32x49x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x128.size a ≤ S4096x128x128.size a
  hwx0_1 : ∀ i : grid0.Coords, EltTy.bits .f32 = 32 ∨ (Rect.block (s := S4096x128x128) S32x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128x128.size a ≤ S4096x128x128.size a
  hwx0_2 : ∀ i : grid0.Coords, EltTy.bits .f32 = 32 ∨ (Rect.block (s := S4096x128x128) S32x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x49x128.size a ≤ S4096x49x128.size a
  hwx0_3 : ∀ i : grid0.Coords, EltTy.bits .f32 = 32 ∨ (Rect.block (s := S4096x49x128) S32x49x128.size (cc0_transform_3 i) (hinb0_3 i)).WholeWords (EltTy.packing .f32)

variable [Facts₀]

def dot_S32x49x128_S32x49x128_S32x128x128_1_1_2_2_0_0 : DotDims S32x49x128 S32x49x128 S32x128x128 where
  lhsContracting := [1]
  rhsContracting := [1]
  lhsNonContracting := [2]
  rhsNonContracting := [2]
  lhsBatch := [0]
  rhsBatch := [0]
  wf := dot_S32x49x128_S32x49x128_S32x128x128_1_1_2_2_0_0_wf
def dot_S32x1x128_S32x1x128_S32x128x128_1_1_2_2_0_0 : DotDims S32x1x128 S32x1x128 S32x128x128 where
  lhsContracting := [1]
  rhsContracting := [1]
  lhsNonContracting := [2]
  rhsNonContracting := [2]
  lhsBatch := [0]
  rhsBatch := [0]
  wf := dot_S32x1x128_S32x1x128_S32x128x128_1_1_2_2_0_0_wf
def dot_S32x49x128_S32x128x128_S32x49x128_2_2_1_1_0_0 : DotDims S32x49x128 S32x128x128 S32x49x128 where
  lhsContracting := [2]
  rhsContracting := [2]
  lhsNonContracting := [1]
  rhsNonContracting := [1]
  lhsBatch := [0]
  rhsBatch := [0]
  wf := dot_S32x49x128_S32x128x128_S32x49x128_2_2_1_1_0_0_wf

abbrev win0_0 : Pipeline.Window sig grid0 :=
  Pipeline.Window.ofSpec (Memref.whole main_v2) S32x49x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3_0) S32x128x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_1) S32x128x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_2) S32x49x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x128x224x224 : Shape := ⟨4, ![4, 128, 224, 224]⟩
abbrev S1 : Shape := ⟨1, ![1]⟩
abbrev S4x128x32x7x32x7 : Shape := ⟨6, ![4, 128, 32, 7, 32, 7]⟩
abbrev S4x32x32x128x7x7 : Shape := ⟨6, ![4, 32, 32, 128, 7, 7]⟩
abbrev S4096x128x49 : Shape := ⟨3, ![4096, 128, 49]⟩
abbrev S4096x128x128 : Shape := ⟨3, ![4096, 128, 128]⟩
abbrev S_ : Shape := ⟨0, ![]⟩
abbrev S4096x128 : Shape := ⟨2, ![4096, 128]⟩
abbrev S4096x128x1 : Shape := ⟨3, ![4096, 128, 1]⟩
abbrev S4x1024x128x128 : Shape := ⟨4, ![4, 1024, 128, 128]⟩

abbrev nBuf : Space → Nat
  | .hbm => 47
  | .vmem => 0
  | .smem => 0
  | _ => 0

abbrev bufTy : (tb : Table) → Fin (tcTables nBuf tb) → BufTy
  | .hbm, ⟨0, _⟩ => ⟨S4x128x224x224, .f32⟩
  | .hbm, ⟨1, _⟩ => ⟨S1, .f32⟩
  | .hbm, ⟨2, _⟩ => ⟨S4x128x32x7x32x7, .f32⟩
  | .hbm, ⟨3, _⟩ => ⟨S4x32x32x128x7x7, .f32⟩
  | .hbm, ⟨4, _⟩ => ⟨S4096x128x49, .f32⟩
  | .hbm, ⟨5, _⟩ => ⟨S4096x128x128, .f32⟩
  | .hbm, ⟨6, _⟩ => ⟨S_, .f32⟩
  | .hbm, ⟨7, _⟩ => ⟨S4096x128, .f32⟩
  | .hbm, ⟨8, _⟩ => ⟨S_, .f32⟩
  | .hbm, ⟨9, _⟩ => ⟨S4096x128, .f32⟩
  | .hbm, ⟨10, _⟩ => ⟨S4096x128, .f32⟩
  | .hbm, ⟨11, _⟩ => ⟨S4096x128x1, .f32⟩
  | .hbm, ⟨12, _⟩ => ⟨S4096x128x128, .f32⟩
  | .hbm, ⟨13, _⟩ => ⟨S4096x128x128, .f32⟩
  | .hbm, ⟨14, _⟩ => ⟨S4096x128x128, .f32⟩
  | .hbm, ⟨15, _⟩ => ⟨S_, .f32⟩
  | .hbm, ⟨16, _⟩ => ⟨S4096x128, .f32⟩
  | .hbm, ⟨17, _⟩ => ⟨S4096x128x1, .f32⟩
  | .hbm, ⟨18, _⟩ => ⟨S4096x128x128, .f32⟩
  | .hbm, ⟨19, _⟩ => ⟨S4096x128x128, .f32⟩
  | .hbm, ⟨20, _⟩ => ⟨S_, .f32⟩
  | .hbm, ⟨21, _⟩ => ⟨S4096x128, .f32⟩
  | .hbm, ⟨22, _⟩ => ⟨S4096x128x1, .f32⟩
  | .hbm, ⟨23, _⟩ => ⟨S_, .f32⟩
  | .hbm, ⟨24, _⟩ => ⟨S4096x128x1, .f32⟩
  | .hbm, ⟨25, _⟩ => ⟨S4096x128x1, .f32⟩
  | .hbm, ⟨26, _⟩ => ⟨S4096x128x49, .f32⟩
  | .hbm, ⟨27, _⟩ => ⟨S4096x128x49, .f32⟩
  | .hbm, ⟨28, _⟩ => ⟨S4096x128x128, .f32⟩
  | .hbm, ⟨29, _⟩ => ⟨S_, .f32⟩
  | .hbm, ⟨30, _⟩ => ⟨S4096x128x128, .f32⟩
  | .hbm, ⟨31, _⟩ => ⟨S4096x128x128, .f32⟩
  | .hbm, ⟨32, _⟩ => ⟨S_, .f32⟩
  | .hbm, ⟨33, _⟩ => ⟨S4096x128x128, .f32⟩
  | .hbm, ⟨34, _⟩ => ⟨S4096x128x128, .f32⟩
  | .hbm, ⟨35, _⟩ => ⟨S4096x128x128, .f32⟩
  | .hbm, ⟨36, _⟩ => ⟨S4096x128x49, .f32⟩
  | .hbm, ⟨37, _⟩ => ⟨S4x32x32x128x7x7, .f32⟩
  | .hbm, ⟨38, _⟩ => ⟨S4x128x32x7x32x7, .f32⟩
  | .hbm, ⟨39, _⟩ => ⟨S4x128x224x224, .f32⟩
  | .hbm, ⟨40, _⟩ => ⟨S_, .f32⟩
  | .hbm, ⟨41, _⟩ => ⟨S4x128x224x224, .f32⟩
  | .hbm, ⟨42, _⟩ => ⟨S4x128x224x224, .f32⟩
  | .hbm, ⟨43, _⟩ => ⟨S4x128x224x224, .f32⟩
  | .hbm, ⟨44, _⟩ => ⟨S4x128x224x224, .f32⟩
  | .hbm, ⟨45, _⟩ => ⟨S4x1024x128x128, .f32⟩
  | .hbm, ⟨46, _⟩ => ⟨S4x1024x128x128, .f32⟩
  | _, _ => ⟨S4x128x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]

class Facts₀ : Prop where
  shapeCasts_S4x128x224x224_S4x128x32x7x32x7 : S4x128x224x224.ShapeCasts S4x128x32x7x32x7
  transposes_S4x128x32x7x32x7_S4x32x32x128x7x7_0_2_4_1_3_5 : S4x128x32x7x32x7.Transposes [0, 2, 4, 1, 3, 5] S4x32x32x128x7x7
  shapeCasts_S4x32x32x128x7x7_S4096x128x49 : S4x32x32x128x7x7.ShapeCasts S4096x128x49
  reducesTo_S4096x128x128_S4096x128_d2 : S4096x128x128.ReducesTo [2] S4096x128
  h_S_ : 0 < S_.numel
  bcast_S_S4096x128 : S_.BroadcastsInDim S4096x128 (![] : Fin 0 → Fin S4096x128.rank)
  bcast_S4096x128_S4096x128x1_0_1 : S4096x128.BroadcastsInDim S4096x128x1 (![0, 1] : Fin 2 → Fin S4096x128x1.rank)
  bcast_S4096x128x1_S4096x128x128_0_1_2 : S4096x128x1.BroadcastsInDim S4096x128x128 (![0, 1, 2] : Fin 3 → Fin S4096x128x128.rank)
  reducesTo_S4096x128x49_S4096x128_d2 : S4096x128x49.ReducesTo [2] S4096x128
  bcast_S_S4096x128x1 : S_.BroadcastsInDim S4096x128x1 (![] : Fin 0 → Fin S4096x128x1.rank)
  bcast_S4096x128x1_S4096x128x49_0_1_2 : S4096x128x1.BroadcastsInDim S4096x128x49 (![0, 1, 2] : Fin 3 → Fin S4096x128x49.rank)
  bcast_S_S4096x128x128 : S_.BroadcastsInDim S4096x128x128 (![] : Fin 0 → Fin S4096x128x128.rank)
  shapeCasts_S4096x128x49_S4x32x32x128x7x7 : S4096x128x49.ShapeCasts S4x32x32x128x7x7
  transposes_S4x32x32x128x7x7_S4x128x32x7x32x7_0_3_1_4_2_5 : S4x32x32x128x7x7.Transposes [0, 3, 1, 4, 2, 5] S4x128x32x7x32x7
  shapeCasts_S4x128x32x7x32x7_S4x128x224x224 : S4x128x32x7x32x7.ShapeCasts S4x128x224x224
  shapeCasts_S1_S_ : S1.ShapeCasts S_
  bcast_S_S4x128x224x224 : S_.BroadcastsInDim S4x128x224x224 (![] : Fin 0 → Fin S4x128x224x224.rank)
  shapeCasts_S4096x128x128_S4x1024x128x128 : S4096x128x128.ShapeCasts S4x1024x128x128
  dot_S4096x128x49_S4096x128x49_S4096x128x128_2_2_1_1_0_0_wf : DotDims.WF S4096x128x49 S4096x128x49 S4096x128x128 [2] [2] [1] [1] [0] [0]
  dot_S4096x128x128_S4096x128x49_S4096x128x49_2_1_1_2_0_0_wf : DotDims.WF S4096x128x128 S4096x128x49 S4096x128x49 [2] [1] [1] [2] [0] [0]

variable [Facts₀]

def dot_S4096x128x49_S4096x128x49_S4096x128x128_2_2_1_1_0_0 : DotDims S4096x128x49 S4096x128x49 S4096x128x128 where
  lhsContracting := [2]
  rhsContracting := [2]
  lhsNonContracting := [1]
  rhsNonContracting := [1]
  lhsBatch := [0]
  rhsBatch := [0]
  wf := dot_S4096x128x49_S4096x128x49_S4096x128x128_2_2_1_1_0_0_wf
def dot_S4096x128x128_S4096x128x49_S4096x128x49_2_1_1_2_0_0 : DotDims S4096x128x128 S4096x128x49 S4096x128x49 where
  lhsContracting := [2]
  rhsContracting := [1]
  lhsNonContracting := [1]
  rhsNonContracting := [2]
  lhsBatch := [0]
  rhsBatch := [0]
  wf := dot_S4096x128x128_S4096x128x49_S4096x128x49_2_1_1_2_0_0_wf

class Facts : Prop extends Facts₀ where

variable [Facts]
-- ==== Proof.Spec.lean ====
/-
  Per-patch channel attention over the extended reals, and its whole-array forms.

  A patch is a 49 × 128 matrix `a p c` (pixel `p`, channel `c`). From it:
    gram a c d   = Σ_p a p c · a p d                      (channel Gram matrix)
    sc a c d     = exp (gram c d − max_d gram c d) / Σ_d exp (…)   (row softmax of the Gram matrix)
    mu a c       = (Σ_p a p c) / 49                        (channel mean)
    cov a c d    = gram c d · (1/49) − mu c · mu d         (covariance, product form)
    covRef a c d = (Σ_p (a p c − mu c)(a p d − mu d)) / 49 (covariance, centred form)
    ec a p c     = Σ_d a p d · (sc c d + ½ · cov c d)      (the recombined patch)
  The two covariance forms agree on finite patches (Proof/Algebra.lean); everything else is the same
  expression on both sides of the certificate.
-/
import Idealize.ShloMosaic.PureOps.Ideal
import Idealize.ShloMosaic.Lib.ValueIdx

noncomputable section

namespace Cert.PatchAttn

open Idealize.ShloMosaic Idealize.ShloMosaic.ValueIdx

/-- A patch: 49 pixels by 128 channels of extended reals. -/
abbrev Patch : Type := Fin 49 → Fin 128 → EReal

/-- The float constants both programs spell with the same bit pattern; only `c49` is ever evaluated. -/
def negInf : EReal := Ideal.ofBits .f32 0xFF800000#32
def c49 : EReal := Ideal.ofBits .f32 0x42440000#32
def half : EReal := Ideal.ofBits .f32 0x3F000000#32
/-- The kernel's named reciprocal, as the rational it denotes. -/
def inv49 : EReal := ((1 / 49 : ℝ) : EReal)

/-- The Gram matrix of the channels: `Σ_p a p c · a p d`. -/
def gram (a : Patch) (c d : Fin 128) : EReal := ∑ p : Fin 49, a p c * a p d
/-- The maximum of row `c` of the Gram matrix, folded from the float `-∞` pattern. -/
def rowMax (a : Patch) (c : Fin 128) : EReal := (Finset.univ : Finset (Fin 128)).fold max negInf (fun d => gram a c d)
/-- The shifted exponential. -/
def ex (a : Patch) (c d : Fin 128) : EReal := Ideal.exp (gram a c d - rowMax a c)
/-- The softmax denominator of row `c`. -/
def den (a : Patch) (c : Fin 128) : EReal := ∑ d : Fin 128, ex a c d
/-- The row softmax of the Gram matrix. -/
def sc (a : Patch) (c d : Fin 128) : EReal := Ideal.div (ex a c d) (den a c)
/-- The mean of channel `c` over the 49 pixels. -/
def mu (a : Patch) (c : Fin 128) : EReal := Ideal.div (∑ p : Fin 49, a p c) c49
/-- Covariance in product form: `gram/49 − mu ⊗ mu`. -/
def cov (a : Patch) (c d : Fin 128) : EReal := gram a c d * inv49 - mu a c * mu a d
/-- Covariance in centred form. -/
def covRef (a : Patch) (c d : Fin 128) : EReal := Ideal.div (∑ p : Fin 49, (a p c - mu a c) * (a p d - mu a d)) c49
/-- The mixing matrix. -/
def combo (a : Patch) (c d : Fin 128) : EReal := sc a c d + half * cov a c d
def comboRef (a : Patch) (c d : Fin 128) : EReal := sc a c d + half * covRef a c d
/-- The recombined patch, pixel-major (the patch on the left of each product). -/
def ec (a : Patch) (p : Fin 49) (c : Fin 128) : EReal := ∑ d : Fin 128, a p d * combo a c d
/-- The recombined patch, channel-major (the mixing matrix on the left, centred covariance). -/
def ecRef (a : Patch) (c : Fin 128) (p : Fin 49) : EReal := ∑ d : Fin 128, comboRef a c d * a p d

/-! ## Whole arrays of patches -/

/-- Patch `n` of a pixel-major stack `[N, 49, 128]`. -/
def patchOf {N : Nat} (f : (⟨3, ![N, 49, 128]⟩ : Shape).Idx → EReal) (n : Fin N) : Patch := fun p c => f (ix3 n p c)
/-- Patch `n` of a channel-major stack `[N, 128, 49]`. -/
def patchOfT {N : Nat} (f : (⟨3, ![N, 128, 49]⟩ : Shape).Idx → EReal) (n : Fin N) : Patch := fun p c => f (ix3 n c p)

/-- Softmax, covariance and recombination of every patch of a pixel-major stack. -/
def scArr {N : Nat} (f : (⟨3, ![N, 49, 128]⟩ : Shape).Idx → EReal) : (⟨3, ![N, 128, 128]⟩ : Shape).Idx → EReal :=
  fun i => sc (patchOf f (i 0)) (i 1) (i 2)
def covArr {N : Nat} (f : (⟨3, ![N, 49, 128]⟩ : Shape).Idx → EReal) : (⟨3, ![N, 128, 128]⟩ : Shape).Idx → EReal :=
  fun i => cov (patchOf f (i 0)) (i 1) (i 2)
def ecArr {N : Nat} (f : (⟨3, ![N, 49, 128]⟩ : Shape).Idx → EReal) : (⟨3, ![N, 49, 128]⟩ : Shape).Idx → EReal :=
  fun i => ec (patchOf f (i 0)) (i 1) (i 2)

/-- The same of a channel-major stack, with the centred covariance and the channel-major recombination. -/
def scArrT {N : Nat} (f : (⟨3, ![N, 128, 49]⟩ : Shape).Idx → EReal) : (⟨3, ![N, 128, 128]⟩ : Shape).Idx → EReal :=
  fun i => sc (patchOfT f (i 0)) (i 1) (i 2)
def covRefArrT {N : Nat} (f : (⟨3, ![N, 128, 49]⟩ : Shape).Idx → EReal) : (⟨3, ![N, 128, 128]⟩ : Shape).Idx → EReal :=
  fun i => covRef (patchOfT f (i 0)) (i 1) (i 2)
def ecRefArrT {N : Nat} (f : (⟨3, ![N, 128, 49]⟩ : Shape).Idx → EReal) : (⟨3, ![N, 128, 49]⟩ : Shape).Idx → EReal :=
  fun i => ecRef (patchOfT f (i 0)) (i 1) (i 2)

theorem scArr_apply {N : Nat} (f : (⟨3, ![N, 49, 128]⟩ : Shape).Idx → EReal) (n : Fin N) (c d : Fin 128) :
    scArr f (ix3 n c d) = sc (patchOf f n) c d := rfl
theorem covArr_apply {N : Nat} (f : (⟨3, ![N, 49, 128]⟩ : Shape).Idx → EReal) (n : Fin N) (c d : Fin 128) :
    covArr f (ix3 n c d) = cov (patchOf f n) c d := rfl
theorem ecArr_apply {N : Nat} (f : (⟨3, ![N, 49, 128]⟩ : Shape).Idx → EReal) (n : Fin N) (p : Fin 49) (c : Fin 128) :
    ecArr f (ix3 n p c) = ec (patchOf f n) p c := rfl
theorem scArrT_apply {N : Nat} (f : (⟨3, ![N, 128, 49]⟩ : Shape).Idx → EReal) (n : Fin N) (c d : Fin 128) :
    scArrT f (ix3 n c d) = sc (patchOfT f n) c d := rfl
theorem covRefArrT_apply {N : Nat} (f : (⟨3, ![N, 128, 49]⟩ : Shape).Idx → EReal) (n : Fin N) (c d : Fin 128) :
    covRefArrT f (ix3 n c d) = covRef (patchOfT f n) c d := rfl
theorem ecRefArrT_apply {N : Nat} (f : (⟨3, ![N, 128, 49]⟩ : Shape).Idx → EReal) (n : Fin N) (c : Fin 128) (p : Fin 49) :
    ecRefArrT f (ix3 n c p) = ecRef (patchOfT f n) c p := rfl

end Cert.PatchAttn

end
-- ==== Proof.KernelPay.lean ====
/-
  The three stored payloads of the kernel body, read index by index at the ideal instance.

  The loaded block is a stack of 32 patches `v0[g, p, c]` (patch `g`, pixel `p`, channel `c`). The body computes
    s[g, c, d]   = Σ_p v0[g, p, c] · v0[g, p, d]                       (the channel Gram matrix of patch g),
    sc[g, c, d]  = exp (s − max_d s) / Σ_d exp (s − max_d s)            (its row softmax),
    cov[g, c, d] = s · (1/49) − m[g, c] · m[g, d],  m = (Σ_p v0) / 49   (the covariance, product form),
    ec[g, p, c]  = Σ_d v0[g, p, d] · (sc + ½ · cov)[g, c, d]            (the recombined patch),
  and stores sc, cov and ec. Each is the specification's whole-array form of the same expression.
-/
import proofs.«429139_j103079215454_3_alg».proof.Proof.Gen.KernelIdeal.Skeleton
import proofs.«429139_j103079215454_3_alg».proof.Proof.Spec
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen Cert.PatchAttn

/-! ## The first contraction: the Gram matrix -/

/-- The shape cast of the loaded block to its own shape is the block. -/
theorem pay1_eq (x0 : Vec Ideal S32x49x128 .f32) : k0_pay1 (F := Ideal) x0 = x0 :=
  shapeCast_self x0 _

/-- The dimension numbers of the Gram product, as `D2`. -/
abbrev D2 : DotDims S32x49x128 S32x49x128 S32x128x128 := dot_S32x49x128_S32x49x128_S32x128x128_1_1_2_2_0_0

theorem D2_lhs0 (i : S32x128x128.Idx) (q : D2.contr.Idx) : (D2.lhsIdx i q 0).val = (i 0).val := by
  unfold DotDims.lhsIdx
  rw [dif_pos (show (0 : Fin S32x49x128.rank) ∈ D2.lhsBatch by decide)]
  rfl
theorem D2_lhs1 (i : S32x128x128.Idx) (q : D2.contr.Idx) : (D2.lhsIdx i q 1).val = (q ⟨0, by decide⟩).val :=
  D2.lhsIdx_val_of_single rfl i q
theorem D2_lhs2 (i : S32x128x128.Idx) (q : D2.contr.Idx) : (D2.lhsIdx i q 2).val = (i 1).val := by
  unfold DotDims.lhsIdx
  rw [dif_neg (show ¬(2 : Fin S32x49x128.rank) ∈ D2.lhsBatch by decide),
    dif_pos (show (2 : Fin S32x49x128.rank) ∈ D2.lhsNonContracting by decide)]
  rfl
theorem D2_rhs0 (i : S32x128x128.Idx) (q : D2.contr.Idx) : (D2.rhsIdx i q 0).val = (i 0).val := by
  unfold DotDims.rhsIdx
  rw [dif_pos (show (0 : Fin S32x49x128.rank) ∈ D2.rhsBatch by decide)]
  rfl
theorem D2_rhs1 (i : S32x128x128.Idx) (q : D2.contr.Idx) : (D2.rhsIdx i q 1).val = (q ⟨0, by decide⟩).val :=
  D2.rhsIdx_val_of_single rfl i q
theorem D2_rhs2 (i : S32x128x128.Idx) (q : D2.contr.Idx) : (D2.rhsIdx i q 2).val = (i 2).val := by
  unfold DotDims.rhsIdx
  rw [dif_neg (show ¬(2 : Fin S32x49x128.rank) ∈ D2.rhsBatch by decide),
    dif_pos (show (2 : Fin S32x49x128.rank) ∈ D2.rhsNonContracting by decide)]
  rfl

/-- The Gram product at `(g, c, d)`: the sum over the pixels of the two channels' products. -/
theorem pay2_apply (x0 : Vec Ideal S32x49x128 .f32) (g : Fin 32) (c d : Fin 128) :
    k0_pay2 (F := Ideal) x0 (ix3 g c d) = gram (patchOf x0 g) c d := by
  unfold k0_pay2
  rw [pay1_eq]
  refine (Ideal.matmul_constant_zero_apply D2 _ x0 x0 (ix3 g c d)).trans ?_
  rw [← Equiv.sum_comp (contrEquiv1 D2 49 rfl rfl).symm]
  refine Finset.sum_congr rfl fun k _ => ?_
  have hk := contrEquiv1_symm_val D2 49 rfl rfl k
  have el : D2.lhsIdx (ix3 g c d) ((contrEquiv1 D2 49 rfl rfl).symm k) = ix3 g k c := funext fun a => Fin.ext (by
    match a with
    | ⟨0, _⟩ => exact D2_lhs0 _ _
    | ⟨1, _⟩ => exact (D2_lhs1 _ _).trans hk
    | ⟨2, _⟩ => exact D2_lhs2 _ _)
  have er : D2.rhsIdx (ix3 g c d) ((contrEquiv1 D2 49 rfl rfl).symm k) = ix3 g k d := funext fun a => Fin.ext (by
    match a with
    | ⟨0, _⟩ => exact D2_rhs0 _ _
    | ⟨1, _⟩ => exact (D2_rhs1 _ _).trans hk
    | ⟨2, _⟩ => exact D2_rhs2 _ _)
  rw [el, er]
  rfl

/-! ## Keepdims on the last axis, and the two row reductions -/

/-- A `[32,128]` value cast to `[32,128,1]` and broadcast to `[32,128,128]` reads `(g, c)` at every `(g, c, d)`. -/
theorem keepLast_apply {α : Type} (r : S32x128.Idx → α) (hsc : S32x128.ShapeCasts S32x128x1)
    (hbc : S32x128x1.Broadcasts S32x128x128) (g : Fin 32) (c d : Fin 128) :
    broadcastTo S32x128x128 (shapeCast S32x128x1 r hsc) hbc (ix3 g c d) = r (ix2 g c) := by
  refine (broadcastTo_apply _ hbc (ix3 g c d) (ix3 g c (0 : Fin 1)) fun a => ?_).trans ?_
  · match a with
    | ⟨0, _⟩ => rfl
    | ⟨1, _⟩ => rfl
    | ⟨2, _⟩ => rfl
  · refine shapeCast_apply r hsc (ix3 g c (0 : Fin 1)) (ix2 g c) ?_
    rw [Shape.rowMajor_val_two, Shape.rowMajor_val_three]
    show g.val * 128 + c.val = (g.val * 128 + c.val) * 1 + 0
    omega

/-- The source index over `(g, c)` with `d` inserted on the last axis is `(g, c, d)`. -/
theorem lift2_eq (hr : S32x128x128.Reduces [2] S32x128) (g : Fin 32) (c d : Fin 128) :
    hr.lift (ix2 g c) d = ix3 g c d :=
  funext fun a => Fin.ext (by
    match a with
    | ⟨0, _⟩ => rfl
    | ⟨1, _⟩ => rfl
    | ⟨2, _⟩ => rfl)

/-- The maximum over the last axis, folded from the accumulator's value. -/
theorem rowMax_apply (y : FVec Ideal S32x128x128 .f32) (hr : S32x128x128.Reduces [2] S32x128) (hφ : FKind.Formats .f32)
    (hacc : (0xFF800000#32 : BitVec 32) = FKind.maximumf.neutral .f32 hφ) (g : Fin 32) (c : Fin 128) :
    multiReduction .maximumf [2] S32x128 y 0xFF800000#32 hr hφ hacc (ix2 g c)
      = (Finset.univ : Finset (Fin 128)).fold max negInf (fun d => y (ix3 g c d)) := by
  refine (Ideal.multiReduction_maximumf_single y _ hr hφ hacc (ix2 g c)).trans ?_
  have e : (y ∘ hr.lift (ix2 g c)) = fun d : Fin 128 => y (ix3 g c d) := funext fun d => congrArg y (lift2_eq hr g c d)
  exact congrArg ((Finset.univ : Finset (Fin 128)).fold max negInf) e

/-- The sum over the last axis. -/
theorem rowSum_apply (y : FVec Ideal S32x128x128 .f32) (hr : S32x128x128.Reduces [2] S32x128) (hφ : FKind.Formats .f32)
    (hacc : (0x00000000#32 : BitVec 32) = FKind.add.neutral .f32 hφ) (g : Fin 32) (c : Fin 128) :
    multiReduction .add [2] S32x128 y 0x00000000#32 hr hφ hacc (ix2 g c) = ∑ d : Fin 128, y (ix3 g c d) := by
  refine (Ideal.multiReduction_add_single y _ hr hφ hacc (ix2 g c)).trans ?_
  exact Finset.sum_congr rfl fun d _ => congrArg y (lift2_eq hr g c d)

/-! ## The row softmax -/

/-- The shifted exponential as the body writes it, over any stack of matrices `y`. -/
def expShift (y : FVec Ideal S32x128x128 .f32) (hr : S32x128x128.Reduces [2] S32x128) (hsc : S32x128.ShapeCasts S32x128x1)
    (hbc : S32x128x1.Broadcasts S32x128x128) (hφ : FKind.Formats .f32)
    (hacc : (0xFF800000#32 : BitVec 32) = FKind.maximumf.neutral .f32 hφ) : FVec Ideal S32x128x128 .f32 :=
  exp (subf y (broadcastTo S32x128x128 (shapeCast S32x128x1 (multiReduction .maximumf [2] S32x128 y 0xFF800000#32 hr hφ hacc) hsc) hbc))

/-- Over a stack whose patch `g` is the Gram matrix of `a`, the shifted exponential at `(g, c, d)` is `ex a c d`. -/
theorem expShift_apply (y : FVec Ideal S32x128x128 .f32) (a : Patch) (g : Fin 32)
    (hy : ∀ c d, y (ix3 g c d) = gram a c d) (hr : S32x128x128.Reduces [2] S32x128) (hsc : S32x128.ShapeCasts S32x128x1)
    (hbc : S32x128x1.Broadcasts S32x128x128) (hφ : FKind.Formats .f32)
    (hacc : (0xFF800000#32 : BitVec 32) = FKind.maximumf.neutral .f32 hφ) (c d : Fin 128) :
    expShift y hr hsc hbc hφ hacc (ix3 g c d) = ex a c d := by
  show Ideal.exp (y (ix3 g c d)
    - broadcastTo S32x128x128 (shapeCast S32x128x1 (multiReduction .maximumf [2] S32x128 y 0xFF800000#32 hr hφ hacc) hsc) hbc (ix3 g c d)) = _
  rw [keepLast_apply, rowMax_apply, hy]
  have e : (fun d' => y (ix3 g c d')) = fun d' => gram a c d' := funext fun d' => hy c d'
  rw [e]
  rfl

/-- The body's softmax over such a stack is `sc a`. -/
theorem softmax_apply (y : FVec Ideal S32x128x128 .f32) (a : Patch) (g : Fin 32)
    (hy : ∀ c d, y (ix3 g c d) = gram a c d) (hr : S32x128x128.Reduces [2] S32x128) (hsc : S32x128.ShapeCasts S32x128x1)
    (hbc : S32x128x1.Broadcasts S32x128x128) (hφ : FKind.Formats .f32)
    (hacc : (0xFF800000#32 : BitVec 32) = FKind.maximumf.neutral .f32 hφ)
    (hacc' : (0x00000000#32 : BitVec 32) = FKind.add.neutral .f32 hφ) (c d : Fin 128) :
    divf (expShift y hr hsc hbc hφ hacc)
      (broadcastTo S32x128x128 (shapeCast S32x128x1
        (multiReduction .add [2] S32x128 (expShift y hr hsc hbc hφ hacc) 0x00000000#32 hr hφ hacc') hsc) hbc) (ix3 g c d)
      = sc a c d := by
  show Ideal.div (expShift y hr hsc hbc hφ hacc (ix3 g c d))
    (broadcastTo S32x128x128 (shapeCast S32x128x1
        (multiReduction .add [2] S32x128 (expShift y hr hsc hbc hφ hacc) 0x00000000#32 hr hφ hacc') hsc) hbc (ix3 g c d)) = _
  rw [keepLast_apply, rowSum_apply, expShift_apply y a g hy]
  have e : (fun d' => expShift y hr hsc hbc hφ hacc (ix3 g c d')) = fun d' => ex a c d' :=
    funext fun d' => expShift_apply y a g hy hr hsc hbc hφ hacc c d'
  rw [e]
  rfl

/-- The first stored payload is the softmax of every patch's Gram matrix. -/
theorem pay3_eq (x0 : Vec Ideal S32x49x128 .f32) : k0_pay3 (F := Ideal) x0 = scArr (N := 32) x0 := by
  funext j
  obtain ⟨g, c, d, rfl⟩ : ∃ (g : Fin 32) (c : Fin 128) (d : Fin 128), j = ix3 g c d := ⟨j 0, j 1, j 2, eq_ix3 j⟩
  rw [scArr_apply]
  unfold k0_pay3
  exact softmax_apply (k0_pay2 (F := Ideal) x0) (patchOf x0 g) g (pay2_apply x0 g) _ _ _ _ _ _ c d

/-! ## The covariance -/

/-- The source index over `(g, c)` with `p` inserted on the middle axis is `(g, p, c)`. -/
theorem lift1_eq (hr : S32x49x128.Reduces [1] S32x128) (g : Fin 32) (c : Fin 128) (p : Fin 49) :
    hr.lift (ix2 g c) p = ix3 g p c :=
  funext fun a => Fin.ext (by
    match a with
    | ⟨0, _⟩ => rfl
    | ⟨1, _⟩ => rfl
    | ⟨2, _⟩ => rfl)

/-- The sum over the pixels. -/
theorem colSum_apply (x : FVec Ideal S32x49x128 .f32) (hr : S32x49x128.Reduces [1] S32x128) (hφ : FKind.Formats .f32)
    (hacc : (0x00000000#32 : BitVec 32) = FKind.add.neutral .f32 hφ) (g : Fin 32) (c : Fin 128) :
    multiReduction .add [1] S32x128 x 0x00000000#32 hr hφ hacc (ix2 g c) = ∑ p : Fin 49, x (ix3 g p c) := by
  refine (Ideal.multiReduction_add_single x _ hr hφ hacc (ix2 g c)).trans ?_
  exact Finset.sum_congr rfl fun p _ => congrArg x (lift1_eq hr g c p)

/-- A `[32,128]` value cast to `[32,1,128]` reads `(g, c)` at `(g, 0, c)`. -/
theorem keepMid_apply {α : Type} (r : S32x128.Idx → α) (hsc : S32x128.ShapeCasts S32x1x128) (g : Fin 32) (c : Fin 128) :
    shapeCast S32x1x128 r hsc (ix3 g (0 : Fin 1) c) = r (ix2 g c) := by
  refine shapeCast_apply r hsc (ix3 g (0 : Fin 1) c) (ix2 g c) ?_
  rw [Shape.rowMajor_val_two, Shape.rowMajor_val_three]
  show g.val * 128 + c.val = (g.val * 1 + 0) * 128 + c.val
  omega

/-- The channel means as the body writes them, over any block `x`. -/
def meanRow (x : FVec Ideal S32x49x128 .f32) (hr : S32x49x128.Reduces [1] S32x128) (hsc : S32x128.ShapeCasts S32x1x128)
    (hφ : FKind.Formats .f32) (hacc : (0x00000000#32 : BitVec 32) = FKind.add.neutral .f32 hφ) : FVec Ideal S32x1x128 .f32 :=
  divf (shapeCast S32x1x128 (multiReduction .add [1] S32x128 x 0x00000000#32 hr hφ hacc) hsc)
    (broadcast S32x1x128 (Scalar.ofBits .f32 0x42440000#32))

/-- The mean of channel `c` of patch `g`. -/
theorem meanRow_apply (x : FVec Ideal S32x49x128 .f32) (hr : S32x49x128.Reduces [1] S32x128) (hsc : S32x128.ShapeCasts S32x1x128)
    (hφ : FKind.Formats .f32) (hacc : (0x00000000#32 : BitVec 32) = FKind.add.neutral .f32 hφ) (g : Fin 32) (c : Fin 128) :
    meanRow x hr hsc hφ hacc (ix3 g (0 : Fin 1) c) = mu (patchOf x g) c := by
  show Ideal.div (shapeCast S32x1x128 (multiReduction .add [1] S32x128 x 0x00000000#32 hr hφ hacc) hsc (ix3 g (0 : Fin 1) c))
    (Ideal.ofBits .f32 0x42440000#32) = _
  rw [keepMid_apply, colSum_apply]
  rfl

/-- The dimension numbers of the outer product of the means, as `D4`: one contracted coordinate. -/
abbrev D4 : DotDims S32x1x128 S32x1x128 S32x128x128 := dot_S32x1x128_S32x1x128_S32x128x128_1_1_2_2_0_0

theorem D4_lhs0 (i : S32x128x128.Idx) (q : D4.contr.Idx) : (D4.lhsIdx i q 0).val = (i 0).val := by
  unfold DotDims.lhsIdx
  rw [dif_pos (show (0 : Fin S32x1x128.rank) ∈ D4.lhsBatch by decide)]
  rfl
theorem D4_lhs1 (i : S32x128x128.Idx) (q : D4.contr.Idx) : (D4.lhsIdx i q 1).val = (q ⟨0, by decide⟩).val :=
  D4.lhsIdx_val_of_single rfl i q
theorem D4_lhs2 (i : S32x128x128.Idx) (q : D4.contr.Idx) : (D4.lhsIdx i q 2).val = (i 1).val := by
  unfold DotDims.lhsIdx
  rw [dif_neg (show ¬(2 : Fin S32x1x128.rank) ∈ D4.lhsBatch by decide),
    dif_pos (show (2 : Fin S32x1x128.rank) ∈ D4.lhsNonContracting by decide)]
  rfl
theorem D4_rhs0 (i : S32x128x128.Idx) (q : D4.contr.Idx) : (D4.rhsIdx i q 0).val = (i 0).val := by
  unfold DotDims.rhsIdx
  rw [dif_pos (show (0 : Fin S32x1x128.rank) ∈ D4.rhsBatch by decide)]
  rfl
theorem D4_rhs1 (i : S32x128x128.Idx) (q : D4.contr.Idx) : (D4.rhsIdx i q 1).val = (q ⟨0, by decide⟩).val :=
  D4.rhsIdx_val_of_single rfl i q
theorem D4_rhs2 (i : S32x128x128.Idx) (q : D4.contr.Idx) : (D4.rhsIdx i q 2).val = (i 2).val := by
  unfold DotDims.rhsIdx
  rw [dif_neg (show ¬(2 : Fin S32x1x128.rank) ∈ D4.rhsBatch by decide),
    dif_pos (show (2 : Fin S32x1x128.rank) ∈ D4.rhsNonContracting by decide)]
  rfl

/-- A product contracted over ONE coordinate is the product of the two rows' entries. -/
theorem outer_apply (m : FVec Ideal S32x1x128 .f32) (prec : Option ContractPrecision) (g : Fin 32) (c d : Fin 128) :
    FloatOps.matmul D4 prec m m (constant S32x128x128 .f32 0x00000000#32) (ix3 g c d)
      = m (ix3 g (0 : Fin 1) c) * m (ix3 g (0 : Fin 1) d) := by
  refine (Ideal.matmul_constant_zero_apply D4 prec m m (ix3 g c d)).trans ?_
  rw [← Equiv.sum_comp (contrEquiv1 D4 1 rfl rfl).symm, Fin.sum_univ_one]
  have hk := contrEquiv1_symm_val D4 1 rfl rfl (0 : Fin 1)
  have el : D4.lhsIdx (ix3 g c d) ((contrEquiv1 D4 1 rfl rfl).symm 0) = ix3 g (0 : Fin 1) c := funext fun a => Fin.ext (by
    match a with
    | ⟨0, _⟩ => exact D4_lhs0 _ _
    | ⟨1, _⟩ => exact (D4_lhs1 _ _).trans hk
    | ⟨2, _⟩ => exact D4_lhs2 _ _)
  have er : D4.rhsIdx (ix3 g c d) ((contrEquiv1 D4 1 rfl rfl).symm 0) = ix3 g (0 : Fin 1) d := funext fun a => Fin.ext (by
    match a with
    | ⟨0, _⟩ => exact D4_rhs0 _ _
    | ⟨1, _⟩ => exact (D4_rhs1 _ _).trans hk
    | ⟨2, _⟩ => exact D4_rhs2 _ _)
  rw [el, er]

/-- The named reciprocal is the rational it denotes. -/
theorem named_inv49 : Named.named (F := Ideal) κ "inv_49" (φ := .f32) 0x3CA72F05#32 = inv49 :=
  IdealRules.named_const.ideal_named_scalar _ _ _ _ rfl

/-- The covariance as the body writes it, over any block `x` and any stack `y` whose patch `g` is the Gram matrix of
    `x`'s patch `g`: the Gram entry times the reciprocal, less the product of the two means. -/
theorem covTerm_apply (x : FVec Ideal S32x49x128 .f32) (y : FVec Ideal S32x128x128 .f32) (g : Fin 32)
    (hy : ∀ c d, y (ix3 g c d) = gram (patchOf x g) c d) (hr : S32x49x128.Reduces [1] S32x128)
    (hsc : S32x128.ShapeCasts S32x1x128) (hφ : FKind.Formats .f32)
    (hacc : (0x00000000#32 : BitVec 32) = FKind.add.neutral .f32 hφ) (c d : Fin 128) :
    subf (mulf y (broadcast S32x128x128 (Named.named (F := Ideal) κ "inv_49" (φ := .f32) 0x3CA72F05#32)))
      (matmul D4 (some .fp32) (meanRow x hr hsc hφ hacc) (meanRow x hr hsc hφ hacc) (constant S32x128x128 .f32 0x00000000#32))
      (ix3 g c d) = cov (patchOf x g) c d := by
  show y (ix3 g c d) * Named.named (F := Ideal) κ "inv_49" (φ := .f32) 0x3CA72F05#32
      - FloatOps.matmul D4 (some .fp32) (meanRow x hr hsc hφ hacc) (meanRow x hr hsc hφ hacc)
          (constant S32x128x128 .f32 0x00000000#32) (ix3 g c d) = _
  rw [outer_apply, meanRow_apply, meanRow_apply, hy, named_inv49]
  rfl

/-- The covariance at `(g, c, d)`. -/
theorem pay4_apply (x0 : Vec Ideal S32x49x128 .f32) (g : Fin 32) (c d : Fin 128) :
    k0_pay4 (F := Ideal) x0 (ix3 g c d) = cov (patchOf x0 g) c d := by
  unfold k0_pay4
  rw [pay1_eq]
  exact covTerm_apply x0 (k0_pay2 (F := Ideal) x0) g (pay2_apply x0 g) _ _ _ _ c d

/-- The second stored payload is the covariance of every patch. -/
theorem pay4_eq (x0 : Vec Ideal S32x49x128 .f32) : k0_pay4 (F := Ideal) x0 = covArr (N := 32) x0 := by
  funext j
  obtain ⟨g, c, d, rfl⟩ : ∃ (g : Fin 32) (c : Fin 128) (d : Fin 128), j = ix3 g c d := ⟨j 0, j 1, j 2, eq_ix3 j⟩
  rw [covArr_apply]
  exact pay4_apply x0 g c d

/-! ## The recombination -/

/-- The mixing matrix `sc + ½ · cov` at `(g, c, d)`. -/
theorem combo_apply (x0 : Vec Ideal S32x49x128 .f32) (g : Fin 32) (c d : Fin 128) :
    addf (k0_pay3 (F := Ideal) x0) (mulf (broadcast S32x128x128 (Scalar.ofBits .f32 0x3F000000#32)) (k0_pay4 (F := Ideal) x0)) (ix3 g c d)
      = combo (patchOf x0 g) c d := by
  show k0_pay3 (F := Ideal) x0 (ix3 g c d) + Ideal.ofBits .f32 0x3F000000#32 * k0_pay4 (F := Ideal) x0 (ix3 g c d) = _
  rw [pay3_eq, pay4_apply, scArr_apply]
  rfl

/-- The dimension numbers of the last product, as `D5`: both operands contract their last axis. -/
abbrev D5 : DotDims S32x49x128 S32x128x128 S32x49x128 := dot_S32x49x128_S32x128x128_S32x49x128_2_2_1_1_0_0

theorem D5_lhs0 (i : S32x49x128.Idx) (q : D5.contr.Idx) : (D5.lhsIdx i q 0).val = (i 0).val := by
  unfold DotDims.lhsIdx
  rw [dif_pos (show (0 : Fin S32x49x128.rank) ∈ D5.lhsBatch by decide)]
  rfl
theorem D5_lhs1 (i : S32x49x128.Idx) (q : D5.contr.Idx) : (D5.lhsIdx i q 1).val = (i 1).val := by
  unfold DotDims.lhsIdx
  rw [dif_neg (show ¬(1 : Fin S32x49x128.rank) ∈ D5.lhsBatch by decide),
    dif_pos (show (1 : Fin S32x49x128.rank) ∈ D5.lhsNonContracting by decide)]
  rfl
theorem D5_lhs2 (i : S32x49x128.Idx) (q : D5.contr.Idx) : (D5.lhsIdx i q 2).val = (q ⟨0, by decide⟩).val :=
  D5.lhsIdx_val_of_single rfl i q
theorem D5_rhs0 (i : S32x49x128.Idx) (q : D5.contr.Idx) : (D5.rhsIdx i q 0).val = (i 0).val := by
  unfold DotDims.rhsIdx
  rw [dif_pos (show (0 : Fin S32x128x128.rank) ∈ D5.rhsBatch by decide)]
  rfl
theorem D5_rhs1 (i : S32x49x128.Idx) (q : D5.contr.Idx) : (D5.rhsIdx i q 1).val = (i 2).val := by
  unfold DotDims.rhsIdx
  rw [dif_neg (show ¬(1 : Fin S32x128x128.rank) ∈ D5.rhsBatch by decide),
    dif_pos (show (1 : Fin S32x128x128.rank) ∈ D5.rhsNonContracting by decide)]
  rfl
theorem D5_rhs2 (i : S32x49x128.Idx) (q : D5.contr.Idx) : (D5.rhsIdx i q 2).val = (q ⟨0, by decide⟩).val :=
  D5.rhsIdx_val_of_single rfl i q

/-- The recombined patch at `(g, p, c)`: the sum over the channels of the patch's row against the mixing matrix's row.
    The two narrowing format changes are the identity on the extended reals. -/
theorem pay5_apply (x0 : Vec Ideal S32x49x128 .f32) (g : Fin 32) (p : Fin 49) (c : Fin 128) :
    k0_pay5 (F := Ideal) x0 (ix3 g p c) = ec (patchOf x0 g) p c := by
  unfold k0_pay5
  rw [pay1_eq]
  refine (Ideal.matmul_constant_zero_apply D5 none _ _ (ix3 g p c)).trans ?_
  rw [← Equiv.sum_comp (contrEquiv1 D5 128 rfl rfl).symm]
  refine Finset.sum_congr rfl fun k _ => ?_
  have hk := contrEquiv1_symm_val D5 128 rfl rfl k
  have el : D5.lhsIdx (ix3 g p c) ((contrEquiv1 D5 128 rfl rfl).symm k) = ix3 g p k := funext fun a => Fin.ext (by
    match a with
    | ⟨0, _⟩ => exact D5_lhs0 _ _
    | ⟨1, _⟩ => exact D5_lhs1 _ _
    | ⟨2, _⟩ => exact (D5_lhs2 _ _).trans hk)
  have er : D5.rhsIdx (ix3 g p c) ((contrEquiv1 D5 128 rfl rfl).symm k) = ix3 g c k := funext fun a => Fin.ext (by
    match a with
    | ⟨0, _⟩ => exact D5_rhs0 _ _
    | ⟨1, _⟩ => exact D5_rhs1 _ _
    | ⟨2, _⟩ => exact (D5_rhs2 _ _).trans hk)
  rw [el, er]
  exact congrArg (x0 (ix3 g p k) * ·) (combo_apply x0 g c k)

/-- The third stored payload is the recombination of every patch. -/
theorem pay5_eq (x0 : Vec Ideal S32x49x128 .f32) : k0_pay5 (F := Ideal) x0 = ecArr (N := 32) x0 := by
  funext j
  obtain ⟨g, p, c, rfl⟩ : ∃ (g : Fin 32) (p : Fin 49) (c : Fin 128), j = ix3 g p c := ⟨j 0, j 1, j 2, eq_ix3 j⟩
  rw [ecArr_apply]
  exact pay5_apply x0 g p c

end Cert.KernelIdeal.Pay

end
-- ==== Proof.KernelOut.lean ====
/-
  The kernel program's four results as functions of its two arguments.

  The image `x` is unfolded into 4096 patches, pixel-major (`unfoldK`); each patch gives its row softmax `sc`, its
  covariance `cov` and its recombination `ec` (Proof/Spec.lean); the recombined stack is folded back to an image
  (`foldK`), and the image result is `x · (β · fold(ec) + x)`.
-/
import proofs.«429139_j103079215454_3_alg».proof.KernelIdeal
import proofs.«429139_j103079215454_3_alg».proof.Proof.Gen.KernelIdeal
import proofs.«429139_j103079215454_3_alg».proof.Proof.Spec

noncomputable section

namespace Cert.KernelIdeal.KValue

open Idealize.ShloMosaic Cert.KernelIdeal Cert.PatchAttn Cert.KernelIdeal.Facts₀

/-- The pixel-major unfold of an image into 4096 patches. -/
def unfoldK (X : FVec Ideal S4x128x224x224 .f32) : FVec Ideal S4096x49x128 .f32 :=
  shapeCast S4096x49x128 (transpose S4x32x32x7x7x128 [0, 2, 4, 3, 5, 1]
    (shapeCast S4x128x32x7x32x7 X shapeCasts_S4x128x224x224_S4x128x32x7x32x7)
    transposes_S4x128x32x7x32x7_S4x32x32x7x7x128_0_2_4_3_5_1) shapeCasts_S4x32x32x7x7x128_S4096x49x128

/-- The fold of a pixel-major stack back to an image. -/
abbrev foldK (a : FVec Ideal S4096x49x128 .f32) : FVec Ideal S4x128x224x224 .f32 :=
  shapeCast S4x128x224x224 (transpose S4x128x32x7x32x7 [0, 5, 1, 3, 2, 4]
    (shapeCast S4x32x32x7x7x128 a shapeCasts_S4096x49x128_S4x32x32x7x7x128)
    transposes_S4x32x32x7x7x128_S4x128x32x7x32x7_0_5_1_3_2_4) shapeCasts_S4x128x32x7x32x7_S4x128x224x224

/-- The image result from the folded recombination `E`: `x · (β · E + x)`. -/
def outMain (X : FVec Ideal S4x128x224x224 .f32) (B : FVec Ideal S1 .f32) (E : FVec Ideal S4x128x224x224 .f32) : FVec Ideal S4x128x224x224 .f32 :=
  mulf X (addf (mulf (broadcastInDim S4x128x224x224 ![] bcast_S_S4x128x224x224 (shapeCast S_ B shapeCasts_S1_S_)) E) X)

def outEc (X : FVec Ideal S4x128x224x224 .f32) : FVec Ideal S4x128x224x224 .f32 := foldK (ecArr (N := 4096) (unfoldK X))
def outSc (X : FVec Ideal S4x128x224x224 .f32) : FVec Ideal S4x1024x128x128 .f32 :=
  shapeCast S4x1024x128x128 (scArr (N := 4096) (unfoldK X)) shapeCasts_S4096x128x128_S4x1024x128x128
def outCov (X : FVec Ideal S4x128x224x224 .f32) : FVec Ideal S4x1024x128x128 .f32 :=
  shapeCast S4x1024x128x128 (covArr (N := 4096) (unfoldK X)) shapeCasts_S4096x128x128_S4x1024x128x128

end Cert.KernelIdeal.KValue

end
-- ==== Proof.KernelValue.lean ====
/-
  The idealized kernel program's run, with its results named.

  The region is launched on the pixel-major patch stack `stack` (the host lines before it unfold the image). At grid
  point `t` the body reads block `t` of the stack — 32 whole patches, numbers `32·t … 32·t + 31` — and stores the row
  softmax, the covariance and the recombination of each of those patches; each is a function of ONE patch, so what point
  `t` writes back is block `t` of the whole-array functions `scArr`, `covArr`, `ecArr` of the stack. The 128 blocks
  tile each output array (row `r` lies in block `r / 32`), so after the region the three arrays ARE those functions. The
  host lines after the region fold the recombined stack back to an image, combine it with the image and `β`, and
  reshape the two [4096,128,128] arrays to [4,1024,128,128].
-/
import proofs.«429139_j103079215454_3_alg».proof.Proof.Gen.KernelIdeal.Frame
import proofs.«429139_j103079215454_3_alg».proof.Proof.Spec
import proofs.«429139_j103079215454_3_alg».proof.Proof.KernelPay
import proofs.«429139_j103079215454_3_alg».proof.Proof.KernelOut
import Idealize.ShloMosaic.Lib.Pipeline.Value
import Idealize.ShloMosaic.Lib.ValueIdx
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.PatchAttn

variable (m : (ℓ : Loc nD τ sig) → Buf (Elt Ideal) ℓ) (ρ : Dev nD → PrngReg)

theorem hz3 : (![0, 0, 0] : Fin 3 → Nat) = fun _ => 0 := funext fun a => by fin_cases a <;> rfl

/-- The patch stack the region is launched on, as the region finds it. -/
abbrev stack (c : Dev nD) : S4096x49x128.Idx → EReal := V m c main_v2

/-- Every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Two stacks agree on softmax, covariance and recombination wherever their patches agree. -/
theorem scArr_congr {N M : Nat} (f : (⟨3, ![N, 49, 128]⟩ : Shape).Idx → EReal) (x : (⟨3, ![M, 49, 128]⟩ : Shape).Idx → EReal)
    (i : (⟨3, ![N, 128, 128]⟩ : Shape).Idx) (j : (⟨3, ![M, 128, 128]⟩ : Shape).Idx)
    (h0 : patchOf x (j 0) = patchOf f (i 0)) (h1 : (j 1).val = (i 1).val) (h2 : (j 2).val = (i 2).val) : scArr x j = scArr f i := by
  have e1 : (j 1 : Fin 128) = i 1 := Fin.ext h1
  have e2 : (j 2 : Fin 128) = i 2 := Fin.ext h2
  exact congr (congr (congrArg sc h0) e1) e2
theorem covArr_congr {N M : Nat} (f : (⟨3, ![N, 49, 128]⟩ : Shape).Idx → EReal) (x : (⟨3, ![M, 49, 128]⟩ : Shape).Idx → EReal)
    (i : (⟨3, ![N, 128, 128]⟩ : Shape).Idx) (j : (⟨3, ![M, 128, 128]⟩ : Shape).Idx)
    (h0 : patchOf x (j 0) = patchOf f (i 0)) (h1 : (j 1).val = (i 1).val) (h2 : (j 2).val = (i 2).val) : covArr x j = covArr f i := by
  have e1 : (j 1 : Fin 128) = i 1 := Fin.ext h1
  have e2 : (j 2 : Fin 128) = i 2 := Fin.ext h2
  exact congr (congr (congrArg cov h0) e1) e2
theorem ecArr_congr {N M : Nat} (f : (⟨3, ![N, 49, 128]⟩ : Shape).Idx → EReal) (x : (⟨3, ![M, 49, 128]⟩ : Shape).Idx → EReal)
    (i : (⟨3, ![N, 49, 128]⟩ : Shape).Idx) (j : (⟨3, ![M, 49, 128]⟩ : Shape).Idx)
    (h0 : patchOf x (j 0) = patchOf f (i 0)) (h1 : (j 1).val = (i 1).val) (h2 : (j 2).val = (i 2).val) : ecArr x j = ecArr f i := by
  have e1 : (j 1 : Fin 49) = i 1 := Fin.ext h1
  have e2 : (j 2 : Fin 128) = i 2 := Fin.ext h2
  exact congr (congr (congrArg ec h0) e1) e2

/-- Patch `g` of the block fetched at point `t` is patch `32·t + g` of the stack. -/
theorem patch_blk (c : Dev nD) (t : Fin cfg0.N) (g : Fin 32) (n : Fin 4096) (hn : n.val = t.val * 32 + g.val) :
    patchOf (N := 32) (iblk m c 0 t) g = patchOf (N := 4096) (stack m c) n := by
  funext p cc
  show V m c main_v2 (((cfg0.win 0).blk t).view.emb (ix3 g p cc)) = V m c main_v2 (ix3 n p cc)
  obtain ⟨e0, e1, e2, -⟩ := idx_facts t
  refine congrArg (V m c main_v2) (funext fun a => Fin.ext ?_)
  match a with
  | ⟨0, _⟩ => show win0_0.index t (0 : Fin 3) * 32 + 1 * g.val = n.val; omega
  | ⟨1, _⟩ => show win0_0.index t (1 : Fin 3) * 49 + 1 * p.val = p.val; omega
  | ⟨2, _⟩ => show win0_0.index t (2 : Fin 3) * 128 + 1 * cc.val = cc.val; omega

theorem flushed1_eq (c : Dev nD) (t : Fin cfg0.N) :
    (dats m 0 c).flushed 1 t = ((cfg0.win 1).blk t).view.read (Elt Ideal) (scArr (N := 4096) (stack m c)) := by
  show (cfg0.win 1).cut (grid0.coords t) ((dats m 0 c).after 1 t) = _
  rw [after0_1]
  unfold out0_1
  rw [View.canon_unit_zero hz3]
  simp only [View.ld_unit_zero (S := S32x49x128) hz3]
  rw [Pay.pay3_eq]
  funext j
  show scArr (N := 32) (iblk m c 0 t) j = scArr (N := 4096) (stack m c) (((cfg0.win 1).blk t).view.emb j)
  obtain ⟨-, -, -, e0, e1, e2, -⟩ := idx_facts t
  have hj0 : (j 0).val < 32 := (j 0).isLt
  have ht : t.val < 128 := Nat.lt_of_lt_of_eq t.isLt N_0
  refine scArr_congr _ _ _ _ (patch_blk m c t (j 0) _ ?_) ?_ ?_
  · show win0_1.index t (0 : Fin 3) * 32 + 1 * (j 0).val = t.val * 32 + (j 0).val; omega
  · show (j 1).val = win0_1.index t (1 : Fin 3) * 128 + 1 * (j 1).val; omega
  · show (j 2).val = win0_1.index t (2 : Fin 3) * 128 + 1 * (j 2).val; omega

theorem flushed2_eq (c : Dev nD) (t : Fin cfg0.N) :
    (dats m 0 c).flushed 2 t = ((cfg0.win 2).blk t).view.read (Elt Ideal) (covArr (N := 4096) (stack m c)) := by
  show (cfg0.win 2).cut (grid0.coords t) ((dats m 0 c).after 2 t) = _
  rw [after0_2]
  unfold out0_2
  rw [View.canon_unit_zero hz3]
  simp only [View.ld_unit_zero (S := S32x49x128) hz3]
  rw [Pay.pay4_eq]
  funext j
  show covArr (N := 32) (iblk m c 0 t) j = covArr (N := 4096) (stack m c) (((cfg0.win 2).blk t).view.emb j)
  obtain ⟨-, -, -, -, -, -, e0, e1, e2, -⟩ := idx_facts t
  have hj0 : (j 0).val < 32 := (j 0).isLt
  have ht : t.val < 128 := Nat.lt_of_lt_of_eq t.isLt N_0
  refine covArr_congr _ _ _ _ (patch_blk m c t (j 0) _ ?_) ?_ ?_
  · show win0_2.index t (0 : Fin 3) * 32 + 1 * (j 0).val = t.val * 32 + (j 0).val; omega
  · show (j 1).val = win0_2.index t (1 : Fin 3) * 128 + 1 * (j 1).val; omega
  · show (j 2).val = win0_2.index t (2 : Fin 3) * 128 + 1 * (j 2).val; omega

theorem flushed3_eq (c : Dev nD) (t : Fin cfg0.N) :
    (dats m 0 c).flushed 3 t = ((cfg0.win 3).blk t).view.read (Elt Ideal) (ecArr (N := 4096) (stack m c)) := by
  show (cfg0.win 3).cut (grid0.coords t) ((dats m 0 c).after 3 t) = _
  rw [after0_3]
  unfold out0_3
  rw [View.canon_unit_zero hz3]
  simp only [View.ld_unit_zero (S := S32x49x128) hz3]
  rw [Pay.pay5_eq]
  funext j
  show ecArr (N := 32) (iblk m c 0 t) j = ecArr (N := 4096) (stack m c) (((cfg0.win 3).blk t).view.emb j)
  obtain ⟨-, -, -, -, -, -, -, -, -, e0, e1, e2⟩ := idx_facts t
  have hj0 : (j 0).val < 32 := (j 0).isLt
  have ht : t.val < 128 := Nat.lt_of_lt_of_eq t.isLt N_0
  refine ecArr_congr _ _ _ _ (patch_blk m c t (j 0) _ ?_) ?_ ?_
  · show win0_3.index t (0 : Fin 3) * 32 + 1 * (j 0).val = t.val * 32 + (j 0).val; omega
  · show (j 1).val = win0_3.index t (1 : Fin 3) * 49 + 1 * (j 1).val; omega
  · show (j 2).val = win0_3.index t (2 : Fin 3) * 128 + 1 * (j 2).val; omega

/-! ## The blocks tile each output array -/

theorem mem_blk1 (t : Fin cfg0.N) (i : S4096x128x128.Idx) :
    i ∈ ((cfg0.win 1).blk t).view.set ↔ ∀ a : Fin 3, win0_1.index t a * S32x128x128.size a ≤ (i a).val ∧ (i a).val < win0_1.index t a * S32x128x128.size a + S32x128x128.size a := by
  show i ∈ ((View.whole main_v3_0).slice (win0_1.rect t)).set ↔ _
  rw [View.set_slice_whole, Rect.mem_set_unit]
  exact Iff.rfl
theorem mem_blk2 (t : Fin cfg0.N) (i : S4096x128x128.Idx) :
    i ∈ ((cfg0.win 2).blk t).view.set ↔ ∀ a : Fin 3, win0_2.index t a * S32x128x128.size a ≤ (i a).val ∧ (i a).val < win0_2.index t a * S32x128x128.size a + S32x128x128.size a := by
  show i ∈ ((View.whole main_v3_1).slice (win0_2.rect t)).set ↔ _
  rw [View.set_slice_whole, Rect.mem_set_unit]
  exact Iff.rfl
theorem mem_blk3 (t : Fin cfg0.N) (i : S4096x49x128.Idx) :
    i ∈ ((cfg0.win 3).blk t).view.set ↔ ∀ a : Fin 3, win0_3.index t a * S32x49x128.size a ≤ (i a).val ∧ (i a).val < win0_3.index t a * S32x49x128.size a + S32x49x128.size a := by
  show i ∈ ((View.whole main_v3_2).slice (win0_3.rect t)).set ↔ _
  rw [View.set_slice_whole, Rect.mem_set_unit]
  exact Iff.rfl

/-- The point whose block holds row `r` of a 4096-row array is `r / 32`. -/
def pointOf (r : Nat) (hr : r < 4096) : Fin cfg0.N := ⟨r / 32, by show r / 32 < grid0.N; rw [N_0]; omega⟩

theorem cover1 (i : S4096x128x128.Idx) : ∃ t : Fin cfg0.N, (cfg0.win 1).flush t = true ∧ i ∈ ((cfg0.win 1).blk t).view.set := by
  have h0 : (i 0).val < 4096 := (i 0).isLt
  have h1 : (i 1).val < 128 := (i 1).isLt
  have h2 : (i 2).val < 128 := (i 2).isLt
  refine ⟨pointOf (i 0).val h0, flush0_1 _, ?_⟩
  rw [mem_blk1]
  obtain ⟨-, -, -, e0, e1, e2, -⟩ := idx_facts (pointOf (i 0).val h0)
  have ev : (pointOf (i 0).val h0).val = (i 0).val / 32 := rfl
  intro a
  match a with
  | ⟨0, _⟩ => show win0_1.index _ (0 : Fin 3) * 32 ≤ (i 0).val ∧ (i 0).val < win0_1.index _ (0 : Fin 3) * 32 + 32; omega
  | ⟨1, _⟩ => show win0_1.index _ (1 : Fin 3) * 128 ≤ (i 1).val ∧ (i 1).val < win0_1.index _ (1 : Fin 3) * 128 + 128; omega
  | ⟨2, _⟩ => show win0_1.index _ (2 : Fin 3) * 128 ≤ (i 2).val ∧ (i 2).val < win0_1.index _ (2 : Fin 3) * 128 + 128; omega
theorem cover2 (i : S4096x128x128.Idx) : ∃ t : Fin cfg0.N, (cfg0.win 2).flush t = true ∧ i ∈ ((cfg0.win 2).blk t).view.set := by
  have h0 : (i 0).val < 4096 := (i 0).isLt
  have h1 : (i 1).val < 128 := (i 1).isLt
  have h2 : (i 2).val < 128 := (i 2).isLt
  refine ⟨pointOf (i 0).val h0, flush0_2 _, ?_⟩
  rw [mem_blk2]
  obtain ⟨-, -, -, -, -, -, e0, e1, e2, -⟩ := idx_facts (pointOf (i 0).val h0)
  have ev : (pointOf (i 0).val h0).val = (i 0).val / 32 := rfl
  intro a
  match a with
  | ⟨0, _⟩ => show win0_2.index _ (0 : Fin 3) * 32 ≤ (i 0).val ∧ (i 0).val < win0_2.index _ (0 : Fin 3) * 32 + 32; omega
  | ⟨1, _⟩ => show win0_2.index _ (1 : Fin 3) * 128 ≤ (i 1).val ∧ (i 1).val < win0_2.index _ (1 : Fin 3) * 128 + 128; omega
  | ⟨2, _⟩ => show win0_2.index _ (2 : Fin 3) * 128 ≤ (i 2).val ∧ (i 2).val < win0_2.index _ (2 : Fin 3) * 128 + 128; omega
theorem cover3 (i : S4096x49x128.Idx) : ∃ t : Fin cfg0.N, (cfg0.win 3).flush t = true ∧ i ∈ ((cfg0.win 3).blk t).view.set := by
  have h0 : (i 0).val < 4096 := (i 0).isLt
  have h1 : (i 1).val < 49 := (i 1).isLt
  have h2 : (i 2).val < 128 := (i 2).isLt
  refine ⟨pointOf (i 0).val h0, flush0_3 _, ?_⟩
  rw [mem_blk3]
  obtain ⟨-, -, -, -, -, -, -, -, -, e0, e1, e2⟩ := idx_facts (pointOf (i 0).val h0)
  have ev : (pointOf (i 0).val h0).val = (i 0).val / 32 := rfl
  intro a
  match a with
  | ⟨0, _⟩ => show win0_3.index _ (0 : Fin 3) * 32 ≤ (i 0).val ∧ (i 0).val < win0_3.index _ (0 : Fin 3) * 32 + 32; omega
  | ⟨1, _⟩ => show win0_3.index _ (1 : Fin 3) * 49 ≤ (i 1).val ∧ (i 1).val < win0_3.index _ (1 : Fin 3) * 49 + 49; omega
  | ⟨2, _⟩ => show win0_3.index _ (2 : Fin 3) * 128 ≤ (i 2).val ∧ (i 2).val < win0_3.index _ (2 : Fin 3) * 128 + 128; omega

/-! ## The three output arrays after the region -/

theorem final1 (c : Dev nD) : (dats m 0 c).arrAt 1 cfg0.N = scArr (N := 4096) (stack m c) :=
  (dats m 0 c).arrAt_eq_of_cover 1 (scArr (N := 4096) (stack m c)) (fun t _ => flushed1_eq m c t) cover1
theorem final2 (c : Dev nD) : (dats m 0 c).arrAt 2 cfg0.N = covArr (N := 4096) (stack m c) :=
  (dats m 0 c).arrAt_eq_of_cover 2 (covArr (N := 4096) (stack m c)) (fun t _ => flushed2_eq m c t) cover2
theorem final3 (c : Dev nD) : (dats m 0 c).arrAt 3 cfg0.N = ecArr (N := 4096) (stack m c) :=
  (dats m 0 c).arrAt_eq_of_cover 3 (ecArr (N := 4096) (stack m c)) (fun t _ => flushed3_eq m c t) cover3

/-! ## The host operations around the region -/

/-- Before the region: the stack is the pixel-major unfold of the image. -/
theorem stack_eq (c : Dev nD) :
    stack m c = shapeCast S4096x49x128 (transpose S4x32x32x7x7x128 [0, 2, 4, 3, 5, 1]
      (shapeCast S4x128x32x7x32x7 (m ((c : Thread nD τ).loc main_arg0)) shapeCasts_S4x128x224x224_S4x128x32x7x32x7)
      transposes_S4x128x32x7x32x7_S4x32x32x7x7x128_0_2_4_3_5_1) shapeCasts_S4x32x32x7x7x128_S4096x49x128 := by
  show StableHlo.after hostOps0 (fun b => m (c, b)) (Proc.devRef .tc main_v2) = _
  after_results
  rfl

/-- The region's three result arrays, as the lines after the region read them. -/
theorem arr1 (c : Dev nD) : Pipeline.withArrays (cfgs 0).spec c (V0 m c) (fun w => (dats m 0 c).arrAt w (cfgs 0).N) (Proc.tc.devRef main_v3_0)
    = scArr (N := 4096) (stack m c) := (Pipeline.withArrays_arr spec0 launch0.win.arr_inj c _ _ 1).trans (final1 m c)
theorem arr2 (c : Dev nD) : Pipeline.withArrays (cfgs 0).spec c (V0 m c) (fun w => (dats m 0 c).arrAt w (cfgs 0).N) (Proc.tc.devRef main_v3_1)
    = covArr (N := 4096) (stack m c) := (Pipeline.withArrays_arr spec0 launch0.win.arr_inj c _ _ 2).trans (final2 m c)
theorem arr3 (c : Dev nD) : Pipeline.withArrays (cfgs 0).spec c (V0 m c) (fun w => (dats m 0 c).arrAt w (cfgs 0).N) (Proc.tc.devRef main_v3_2)
    = ecArr (N := 4096) (stack m c) := (Pipeline.withArrays_arr spec0 launch0.win.arr_inj c _ _ 3).trans (final3 m c)
/-- The two arguments, which no window stages, as the lines after the region read them. -/
theorem arg0_tail (c : Dev nD) : Pipeline.withArrays (cfgs 0).spec c (V0 m c) (fun w => (dats m 0 c).arrAt w (cfgs 0).N) (Proc.tc.devRef main_arg0)
    = m ((c : Thread nD τ).loc main_arg0) :=
  (Pipeline.withArrays_of_ne _ c (V0 m c) _ main_arg0 (by exact (by decide : ∀ w, Pipeline.arrRef spec0 w ≠ main_arg0))).trans (V_main_arg0 m c)
theorem arg1_tail (c : Dev nD) : Pipeline.withArrays (cfgs 0).spec c (V0 m c) (fun w => (dats m 0 c).arrAt w (cfgs 0).N) (Proc.tc.devRef main_arg1)
    = m ((c : Thread nD τ).loc main_arg1) :=
  (Pipeline.withArrays_of_ne _ c (V0 m c) _ main_arg1 (by exact (by decide : ∀ w, Pipeline.arrRef spec0 w ≠ main_arg1))).trans (V_main_arg1 m c)

theorem tail_v6 (c : Dev nD) :
    Pipeline.afterTail₀ cfgs (dats m) 0 (V0 m) [hostOps1] c main_v6 = foldK (ecArr (N := 4096) (stack m c)) := by
  unfold Pipeline.afterTail₀
  show StableHlo.after hostOps1 _ (Proc.devRef .tc main_v6) = _
  after_results
  rw [arr3]
  rfl

theorem tail_v12 (c : Dev nD) :
    Pipeline.afterTail₀ cfgs (dats m) 0 (V0 m) [hostOps1] c main_v12
      = shapeCast S4x1024x128x128 (scArr (N := 4096) (stack m c)) shapeCasts_S4096x128x128_S4x1024x128x128 := by
  unfold Pipeline.afterTail₀
  show StableHlo.after hostOps1 _ (Proc.devRef .tc main_v12) = _
  after_results
  rw [arr1]
  rfl

theorem tail_v13 (c : Dev nD) :
    Pipeline.afterTail₀ cfgs (dats m) 0 (V0 m) [hostOps1] c main_v13
      = shapeCast S4x1024x128x128 (covArr (N := 4096) (stack m c)) shapeCasts_S4096x128x128_S4x1024x128x128 := by
  unfold Pipeline.afterTail₀
  show StableHlo.after hostOps1 _ (Proc.devRef .tc main_v13) = _
  after_results
  rw [arr2]
  rfl

theorem tail_v11 (c : Dev nD) :
    Pipeline.afterTail₀ cfgs (dats m) 0 (V0 m) [hostOps1] c main_v11
      = outMain (m ((c : Thread nD τ).loc main_arg0)) (m ((c : Thread nD τ).loc main_arg1)) (foldK (ecArr (N := 4096) (stack m c))) := by
  unfold Pipeline.afterTail₀
  show StableHlo.after hostOps1 _ (Proc.devRef .tc main_v11) = _
  after_results
  rw [arr3, arg0_tail, arg1_tail]
  rfl

/-! ## The kernel's run, with its four results named -/

theorem stack_unfold (c : Dev nD) : stack m c = unfoldK (m ((c : Thread nD τ).loc main_arg0)) := stack_eq m c

/-- Every weakly fair execution of the idealized kernel ends with its four results at these functions of the arguments,
    the arguments unchanged. -/
theorem run_value : θ_run defs (onTc (τ := τ) (main (F := Ideal))) ⟨m, fun _ => 0, ρ⟩ fun r => ∀ c : Dev nD,
      r.2.mem ((c.tc : Thread nD τ).loc main_v11) = outMain (m ((c.tc : Thread nD τ).loc main_arg0)) (m ((c.tc : Thread nD τ).loc main_arg1)) (outEc (m ((c.tc : Thread nD τ).loc main_arg0)))
      ∧ r.2.mem ((c.tc : Thread nD τ).loc main_v12) = outSc (m ((c.tc : Thread nD τ).loc main_arg0))
      ∧ r.2.mem ((c.tc : Thread nD τ).loc main_v13) = outCov (m ((c.tc : Thread nD τ).loc main_arg0))
      ∧ r.2.mem ((c.tc : Thread nD τ).loc main_v6) = outEc (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v11 (Pipeline.mem_restRefs_of main_v11 (by decide) (by decide))).trans ((tail_v11 m c).trans (by rw [stack_unfold]; rfl)),
     ((h c).2 main_v12 (Pipeline.mem_restRefs_of main_v12 (by decide) (by decide))).trans ((tail_v12 m c).trans (by rw [stack_unfold]; rfl)),
     ((h c).2 main_v13 (Pipeline.mem_restRefs_of main_v13 (by decide) (by decide))).trans ((tail_v13 m c).trans (by rw [stack_unfold]; rfl)),
     ((h c).2 main_v6 (Pipeline.mem_restRefs_of main_v6 (by decide) (by decide))).trans ((tail_v6 m c).trans (by rw [stack_unfold]; rfl)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference program's softmax, covariance and recombination stages, read index by index.

  Write f for the channel-major patch stack [4096, 128, 49] the reference forms from its input (f[n, c, p]: patch n,
  channel c, pixel p) and a = patchOfT f n for patch n as the 49 × 128 matrix a p c = f[n, c, p]. Stage by stage:
    the first contraction          Σ_p f[n,c,p] · f[n,d,p]                      is  gram a c d;
    its row maximum over d, folded from −∞ and then joined with −∞ once more  is  rowMax a c
      (joining a fold of max with its own starting value changes nothing: the start is below the fold);
    the shifted exponential, its row sum from 0, and their quotient            are ex a c d, den a c, sc a c d;
    the pixel sum from 0, divided by 49                                        is  mu a c;
    the contraction of the centred stack, divided by 49                        is  covRef a c d;
    the softmax plus one half of that covariance                               is  comboRef a c d;
    the last contraction           Σ_d comboRef a c d · f[n,d,p]               is  ecRef a c p.
  Every step reads one stage at an index with literal coordinates from the stages before it; the patch stack itself
  is never opened, so the three theorems hold of it as an arbitrary array.
-/
import proofs.«429139_j103079215454_3_alg».proof.Proof.Gen.ReferenceIdeal.Read
import proofs.«429139_j103079215454_3_alg».proof.Proof.Spec
import Idealize.ShloMosaic.PureOps.Reduce
import Idealize.ShloMosaic.PureOps.Ideal.Laws
import Idealize.ShloMosaic.Lib.ValueIdx
import Mathlib.Data.Finset.Fold

noncomputable section

namespace Cert.ReferenceIdeal.RefValue

open Idealize.ShloMosaic Idealize.ShloMosaic.ValueIdx Cert.ReferenceIdeal Cert.ReferenceIdeal.Gen Cert.ReferenceIdeal.Read Cert.PatchAttn

/-- Two rank-3 indices with the same three coordinates are equal. -/
local macro "idx3" : tactic =>
  `(tactic| exact funext fun a => by match a with | ⟨0, _⟩ => rfl | ⟨1, _⟩ => rfl | ⟨2, _⟩ => rfl)
/-- Two rank-2 indices with the same two coordinates are equal. -/
local macro "idx2" : tactic =>
  `(tactic| exact funext fun a => by match a with | ⟨0, _⟩ => rfl | ⟨1, _⟩ => rfl)

variable (X : (⟨S4x128x224x224, .f32⟩ : BufTy).Contents (Elt Ideal))

/-! ## The softmax of the Gram matrix -/

/-- The first contraction at (n, c, d) is the Gram matrix of patch n at (c, d). -/
theorem v3_at (n : Fin 4096) (c d : Fin 128) :
    val_main_v3 (F := Ideal) X (ix3 n c d) = gram (patchOfT (val_main_v2 (F := Ideal) X) n) c d := by
  rw [val_main_v3_apply]
  unfold gram
  refine Finset.sum_congr rfl fun p _ => ?_
  have el : lidx_main_v3 (ix3 n c d) p = ix3 n c p := by idx3
  have er : ridx_main_v3 (ix3 n c d) p = ix3 n d p := by idx3
  rw [el, er]
  rfl

/-- The last axis of a [4096, 128, 128] array reduces to [4096, 128]. -/
theorem reduces_d2 : S4096x128x128.Reduces [2] S4096x128 := by decide

/-- A reduction by max over the last axis of a [4096, 128, 128] array, at (n, c): the fold of max over d from the
    initial value. -/
theorem reduceMax_at (x : S4096x128x128.Idx → EReal) (init : S_.Idx → EReal) (n : Fin 4096) (c : Fin 128) :
    Host.reduce (FloatOps.maximumf (F := Ideal) (φ := .f32)) x init reducesTo_S4096x128x128_S4096x128_d2 h_S_ (ix2 n c)
      = (Finset.univ : Finset (Fin 128)).fold max (init (Shape.Idx.first h_S_)) (fun d => x (ix3 n c d)) := by
  refine (Host.reduce_eq_fold_single _ x init reducesTo_S4096x128x128_S4096x128_d2 reduces_d2 h_S_ (ix2 n c)).trans ?_
  refine Finset.fold_congr fun d _ => ?_
  exact congrArg x (funext fun a => Fin.ext (by match a with | ⟨0, _⟩ => rfl | ⟨1, _⟩ => rfl | ⟨2, _⟩ => rfl))

/-- The row maximum as the reduction computes it: the fold of max over d from −∞. -/
theorem v4_at (n : Fin 4096) (c : Fin 128) :
    val_main_v4 (F := Ideal) X (ix2 n c) = rowMax (patchOfT (val_main_v2 (F := Ideal) X) n) c := by
  unfold val_main_v4
  refine (reduceMax_at _ _ n c).trans ?_
  unfold rowMax
  exact Finset.fold_congr fun d _ => v3_at X n c d

/-- Joining the row maximum with −∞ once more leaves it: −∞ is where the fold started, so it lies below the fold. -/
theorem v6_at (n : Fin 4096) (c : Fin 128) :
    val_main_v6 (F := Ideal) X (ix2 n c) = rowMax (patchOfT (val_main_v2 (F := Ideal) X) n) c := by
  rw [val_main_v6_apply, val_main_v5_apply, val_main_cst_0_apply, v4_at]
  show max negInf (rowMax _ c) = rowMax _ c
  exact max_eq_right (by unfold rowMax; exact (Finset.le_fold_max _).mpr (Or.inl le_rfl))

/-- The row maximum spread back over d. -/
theorem v8_at (n : Fin 4096) (c d : Fin 128) :
    val_main_v8 (F := Ideal) X (ix3 n c d) = rowMax (patchOfT (val_main_v2 (F := Ideal) X) n) c := by
  rw [val_main_v8_apply, val_main_v7_apply]
  have e : idx_main_v7 (idx_main_v8 (ix3 n c d)) = ix2 n c := by idx2
  rw [e, v6_at]

/-- The shifted exponential. -/
theorem v10_at (n : Fin 4096) (c d : Fin 128) :
    val_main_v10 (F := Ideal) X (ix3 n c d) = ex (patchOfT (val_main_v2 (F := Ideal) X) n) c d := by
  rw [val_main_v10_apply, val_main_v9_apply, v3_at, v8_at]
  rfl

/-- The softmax denominator: the sum starts from the float zero, which is 0. -/
theorem v11_at (n : Fin 4096) (c : Fin 128) :
    val_main_v11 (F := Ideal) X (ix2 n c) = den (patchOfT (val_main_v2 (F := Ideal) X) n) c := by
  rw [val_main_v11_apply, val_main_cst_1_apply, Ideal.ofBits_def, Ideal.ofBits_zero_f32, zero_add]
  unfold den
  refine Finset.sum_congr rfl fun d _ => ?_
  have e : idx_main_v11 (ix2 n c) d = ix3 n c d := by idx3
  rw [e, v10_at]

/-- The softmax at (n, c, d). -/
theorem v14_at (n : Fin 4096) (c d : Fin 128) :
    val_main_v14 (F := Ideal) X (ix3 n c d) = sc (patchOfT (val_main_v2 (F := Ideal) X) n) c d := by
  rw [val_main_v14_apply, v10_at, val_main_v13_apply, val_main_v12_apply]
  have e : idx_main_v12 (idx_main_v13 (ix3 n c d)) = ix2 n c := by idx2
  rw [e, v11_at]
  rfl

theorem ref_sc (X : (⟨S4x128x224x224, .f32⟩ : BufTy).Contents (Elt Ideal)) :
    val_main_v14 (F := Ideal) X = scArrT (N := 4096) (val_main_v2 (F := Ideal) X) := by
  funext i
  obtain ⟨n, c, d, rfl⟩ : ∃ (n : Fin 4096) (c : Fin 128) (d : Fin 128), i = ix3 n c d := ⟨i 0, i 1, i 2, eq_ix3 i⟩
  exact v14_at X n c d

/-! ## The centred covariance -/

/-- The pixel sum of channel c of patch n. -/
theorem v15_at (n : Fin 4096) (c : Fin 128) :
    val_main_v15 (F := Ideal) X (ix2 n c) = ∑ p : Fin 49, val_main_v2 (F := Ideal) X (ix3 n c p) := by
  rw [val_main_v15_apply, val_main_cst_2_apply, Ideal.ofBits_def, Ideal.ofBits_zero_f32, zero_add]
  refine Finset.sum_congr rfl fun p _ => ?_
  have e : idx_main_v15 (ix2 n c) p = ix3 n c p := by idx3
  rw [e]

/-- The channel mean, kept with a unit last axis. -/
theorem v18_at (n : Fin 4096) (c : Fin 128) (z : Fin 1) :
    val_main_v18 (F := Ideal) X (ix3 n c z) = mu (patchOfT (val_main_v2 (F := Ideal) X) n) c := by
  rw [val_main_v18_apply, val_main_v16_apply, val_main_v17_apply, val_main_cst_3_apply]
  have e : idx_main_v16 (ix3 n c z) = ix2 n c := by idx2
  rw [e, v15_at]
  rfl

/-- The channel mean spread over the pixels. -/
theorem v19_at (n : Fin 4096) (c : Fin 128) (p : Fin 49) :
    val_main_v19 (F := Ideal) X (ix3 n c p) = mu (patchOfT (val_main_v2 (F := Ideal) X) n) c := by
  rw [val_main_v19_apply]
  have e : idx_main_v19 (ix3 n c p) = ix3 n c (⟨0, Nat.one_pos⟩ : Fin 1) := by idx3
  rw [e, v18_at]

/-- The centred stack. -/
theorem v20_at (n : Fin 4096) (c : Fin 128) (p : Fin 49) :
    val_main_v20 (F := Ideal) X (ix3 n c p)
      = val_main_v2 (F := Ideal) X (ix3 n c p) - mu (patchOfT (val_main_v2 (F := Ideal) X) n) c := by
  rw [val_main_v20_apply, v19_at]
  rfl

/-- The contraction of the centred stack with itself over the pixels. -/
theorem v21_at (n : Fin 4096) (c d : Fin 128) :
    val_main_v21 (F := Ideal) X (ix3 n c d)
      = ∑ p : Fin 49, (patchOfT (val_main_v2 (F := Ideal) X) n p c - mu (patchOfT (val_main_v2 (F := Ideal) X) n) c)
          * (patchOfT (val_main_v2 (F := Ideal) X) n p d - mu (patchOfT (val_main_v2 (F := Ideal) X) n) d) := by
  rw [val_main_v21_apply]
  refine Finset.sum_congr rfl fun p _ => ?_
  have el : lidx_main_v21 (ix3 n c d) p = ix3 n c p := by idx3
  have er : ridx_main_v21 (ix3 n c d) p = ix3 n d p := by idx3
  rw [el, er, v20_at, v20_at]
  rfl

/-- The centred covariance at (n, c, d). -/
theorem v23_at (n : Fin 4096) (c d : Fin 128) :
    val_main_v23 (F := Ideal) X (ix3 n c d) = covRef (patchOfT (val_main_v2 (F := Ideal) X) n) c d := by
  rw [val_main_v23_apply, v21_at, val_main_v22_apply, val_main_cst_4_apply]
  rfl

theorem ref_cov (X : (⟨S4x128x224x224, .f32⟩ : BufTy).Contents (Elt Ideal)) :
    val_main_v23 (F := Ideal) X = covRefArrT (N := 4096) (val_main_v2 (F := Ideal) X) := by
  funext i
  obtain ⟨n, c, d, rfl⟩ : ∃ (n : Fin 4096) (c : Fin 128) (d : Fin 128), i = ix3 n c d := ⟨i 0, i 1, i 2, eq_ix3 i⟩
  exact v23_at X n c d

/-! ## The recombination -/

/-- The mixing matrix: the softmax plus one half of the centred covariance. -/
theorem v26_at (n : Fin 4096) (c d : Fin 128) :
    val_main_v26 (F := Ideal) X (ix3 n c d) = comboRef (patchOfT (val_main_v2 (F := Ideal) X) n) c d := by
  rw [val_main_v26_apply, v14_at, val_main_v25_apply, v23_at, val_main_v24_apply, val_main_cst_5_apply]
  rfl

/-- The mixing matrix applied to the patch, channel-major. -/
theorem v27_at (n : Fin 4096) (c : Fin 128) (p : Fin 49) :
    val_main_v27 (F := Ideal) X (ix3 n c p) = ecRef (patchOfT (val_main_v2 (F := Ideal) X) n) c p := by
  rw [val_main_v27_apply]
  unfold ecRef
  refine Finset.sum_congr rfl fun d _ => ?_
  have el : lidx_main_v27 (ix3 n c p) d = ix3 n c d := by idx3
  have er : ridx_main_v27 (ix3 n c p) d = ix3 n d p := by idx3
  rw [el, er, v26_at]
  rfl

theorem ref_ec (X : (⟨S4x128x224x224, .f32⟩ : BufTy).Contents (Elt Ideal)) :
    val_main_v27 (F := Ideal) X = ecRefArrT (N := 4096) (val_main_v2 (F := Ideal) X) := by
  funext i
  obtain ⟨n, c, p, rfl⟩ : ∃ (n : Fin 4096) (c : Fin 128) (p : Fin 49), i = ix3 n c p := ⟨i 0, i 1, i 2, eq_ix3 i⟩
  exact v27_at X n c p

end Cert.ReferenceIdeal.RefValue

end
-- ==== Proof.Layout.lean ====
/-
  The non-overlapping 7 × 7 unfold of a [4, 128, 224, 224] image into 4096 patches, and the inverse fold.

  Write a pixel row `h = hh · 7 + ph` and a pixel column `w = ww · 7 + pw` (patch row `hh`, patch column `ww`, position
  `(ph, pw)` inside the patch). The image reshaped to [4, 128, 32, 7, 32, 7] holds, at `(b, c, hh, ph, ww, pw)`, the
  pixel `(b, c, h, w)`. Patch number `n = (b · 32 + hh) · 32 + ww` and pixel number `p = ph · 7 + pw`.

    pixel-major unfold    [4096, 49, 128]  at (n, p, c)  reads the six-axis image at (b, c, hh, ph, ww, pw);
    channel-major unfold  [4096, 128, 49]  at (n, c, p)  reads the same element.

  So the two unfolds are one another's transpose on the last two axes (`unfold_swap`), and the two folds, which undo
  them, send stacks that are one another's transpose to the same image (`fold_swap`). Every step is a row-major
  reshape (same position on both sides: linear arithmetic with the literal sizes) or an axis permutation (the
  coordinates renamed).
-/
import Idealize.ShloMosaic.Lib.Pipeline.Value
import Idealize.ShloMosaic.Lib.ValueIdx
import Idealize.ShloMosaic.Lib.ValueIdxRank6

namespace Cert.PatchAttn.Layout

open Idealize.ShloMosaic Idealize.ShloMosaic.ValueIdx

/-- The image: batch, channel, row, column. -/
abbrev Simg : Shape := ⟨4, ![4, 128, 224, 224]⟩
/-- The image with rows and columns split into (patch, offset): `(b, c, hh, ph, ww, pw)`. -/
abbrev S6 : Shape := ⟨6, ![4, 128, 32, 7, 32, 7]⟩
/-- Patches first, channel last: `(b, hh, ww, ph, pw, c)`. -/
abbrev S6K : Shape := ⟨6, ![4, 32, 32, 7, 7, 128]⟩
/-- Patches first, channel before the pixel offsets: `(b, hh, ww, c, ph, pw)`. -/
abbrev S6R : Shape := ⟨6, ![4, 32, 32, 128, 7, 7]⟩
/-- The pixel-major stack of patches `(n, p, c)`. -/
abbrev SK : Shape := ⟨3, ![4096, 49, 128]⟩
/-- The channel-major stack of patches `(n, c, p)`. -/
abbrev SR : Shape := ⟨3, ![4096, 128, 49]⟩

variable {α : Type}

/-! ## The reshapes, read at an index -/

/-- The six-axis image at `(b, c, hh, ph, ww, pw)` is the image at row `hh · 7 + ph`, column `ww · 7 + pw`. -/
theorem split_apply (x : Simg.Idx → α) (h : Simg.ShapeCasts S6) (b : Fin 4) (c : Fin 128) (hh : Fin 32) (ph : Fin 7)
    (ww : Fin 32) (pw : Fin 7) (r s : Fin 224) (hr : r.val = hh.val * 7 + ph.val) (hs : s.val = ww.val * 7 + pw.val) :
    shapeCast S6 x h (ix6 b c hh ph ww pw) = x (ix4 b c r s) :=
  shapeCast_apply x h _ _ (by
    rw [Shape.rowMajor_val_four, Shape.rowMajor_val_six]
    show ((b.val * 128 + c.val) * 224 + r.val) * 224 + s.val
      = ((((b.val * 128 + c.val) * 32 + hh.val) * 7 + ph.val) * 32 + ww.val) * 7 + pw.val
    omega)

/-- The image at row `r`, column `s` is the six-axis image at the quotients and remainders by 7. -/
theorem merge_apply (y : S6.Idx → α) (g : S6.ShapeCasts Simg) (b : Fin 4) (c : Fin 128) (r s : Fin 224) (hh : Fin 32)
    (ph : Fin 7) (ww : Fin 32) (pw : Fin 7) (hr : r.val = hh.val * 7 + ph.val) (hs : s.val = ww.val * 7 + pw.val) :
    shapeCast Simg y g (ix4 b c r s) = y (ix6 b c hh ph ww pw) :=
  shapeCast_apply y g _ _ (by
    rw [Shape.rowMajor_val_four, Shape.rowMajor_val_six]
    show ((((b.val * 128 + c.val) * 32 + hh.val) * 7 + ph.val) * 32 + ww.val) * 7 + pw.val
      = ((b.val * 128 + c.val) * 224 + r.val) * 224 + s.val
    omega)

/-- The pixel-major stack at `(n, p, c)` is the six-axis array `(b, hh, ww, ph, pw, c)` with
    `n = (b · 32 + hh) · 32 + ww` and `p = ph · 7 + pw`. -/
theorem stackK_apply (y : S6K.Idx → α) (h : S6K.ShapeCasts SK) (n : Fin 4096) (p : Fin 49) (c : Fin 128) (b : Fin 4)
    (hh ww : Fin 32) (ph pw : Fin 7) (hn : n.val = (b.val * 32 + hh.val) * 32 + ww.val) (hp : p.val = ph.val * 7 + pw.val) :
    shapeCast SK y h (ix3 n p c) = y (ix6 b hh ww ph pw c) :=
  shapeCast_apply y h _ _ (by
    rw [Shape.rowMajor_val_three, Shape.rowMajor_val_six]
    show ((((b.val * 32 + hh.val) * 32 + ww.val) * 7 + ph.val) * 7 + pw.val) * 128 + c.val
      = (n.val * 49 + p.val) * 128 + c.val
    omega)

/-- The other way: the six-axis array `(b, hh, ww, ph, pw, c)` cut out of a pixel-major stack. -/
theorem unstackK_apply (a : SK.Idx → α) (g : SK.ShapeCasts S6K) (b : Fin 4) (hh ww : Fin 32) (ph pw : Fin 7) (c : Fin 128)
    (n : Fin 4096) (p : Fin 49) (hn : n.val = (b.val * 32 + hh.val) * 32 + ww.val) (hp : p.val = ph.val * 7 + pw.val) :
    shapeCast S6K a g (ix6 b hh ww ph pw c) = a (ix3 n p c) :=
  shapeCast_apply a g _ _ (by
    rw [Shape.rowMajor_val_three, Shape.rowMajor_val_six]
    show (n.val * 49 + p.val) * 128 + c.val
      = ((((b.val * 32 + hh.val) * 32 + ww.val) * 7 + ph.val) * 7 + pw.val) * 128 + c.val
    omega)

/-- The channel-major stack at `(n, c, p)` is the six-axis array `(b, hh, ww, c, ph, pw)`. -/
theorem stackR_apply (y : S6R.Idx → α) (h : S6R.ShapeCasts SR) (n : Fin 4096) (c : Fin 128) (p : Fin 49) (b : Fin 4)
    (hh ww : Fin 32) (ph pw : Fin 7) (hn : n.val = (b.val * 32 + hh.val) * 32 + ww.val) (hp : p.val = ph.val * 7 + pw.val) :
    shapeCast SR y h (ix3 n c p) = y (ix6 b hh ww c ph pw) :=
  shapeCast_apply y h _ _ (by
    rw [Shape.rowMajor_val_three, Shape.rowMajor_val_six]
    show ((((b.val * 32 + hh.val) * 32 + ww.val) * 128 + c.val) * 7 + ph.val) * 7 + pw.val
      = (n.val * 128 + c.val) * 49 + p.val
    omega)

/-- The other way: the six-axis array `(b, hh, ww, c, ph, pw)` cut out of a channel-major stack. -/
theorem unstackR_apply (a : SR.Idx → α) (g : SR.ShapeCasts S6R) (b : Fin 4) (hh ww : Fin 32) (c : Fin 128) (ph pw : Fin 7)
    (n : Fin 4096) (p : Fin 49) (hn : n.val = (b.val * 32 + hh.val) * 32 + ww.val) (hp : p.val = ph.val * 7 + pw.val) :
    shapeCast S6R a g (ix6 b hh ww c ph pw) = a (ix3 n c p) :=
  shapeCast_apply a g _ _ (by
    rw [Shape.rowMajor_val_three, Shape.rowMajor_val_six]
    show (n.val * 128 + c.val) * 49 + p.val
      = ((((b.val * 32 + hh.val) * 32 + ww.val) * 128 + c.val) * 7 + ph.val) * 7 + pw.val
    omega)

/-! ## The axis permutations, read at an index -/

/-- `(b, c, hh, ph, ww, pw) ↦ (b, hh, ww, ph, pw, c)`. -/
theorem permK_apply (y : S6.Idx → α) (h : S6.Transposes [0, 2, 4, 3, 5, 1] S6K) (b : Fin 4) (hh ww : Fin 32)
    (ph pw : Fin 7) (c : Fin 128) :
    transpose S6K [0, 2, 4, 3, 5, 1] y h (ix6 b hh ww ph pw c) = y (ix6 b c hh ph ww pw) :=
  transpose_apply _ y h _ _ fun a => match a with
    | ⟨0, _⟩ => rfl | ⟨1, _⟩ => rfl | ⟨2, _⟩ => rfl | ⟨3, _⟩ => rfl | ⟨4, _⟩ => rfl | ⟨5, _⟩ => rfl

/-- `(b, c, hh, ph, ww, pw) ↦ (b, hh, ww, c, ph, pw)`. -/
theorem permR_apply (y : S6.Idx → α) (h : S6.Transposes [0, 2, 4, 1, 3, 5] S6R) (b : Fin 4) (hh ww : Fin 32)
    (c : Fin 128) (ph pw : Fin 7) :
    transpose S6R [0, 2, 4, 1, 3, 5] y h (ix6 b hh ww c ph pw) = y (ix6 b c hh ph ww pw) :=
  transpose_apply _ y h _ _ fun a => match a with
    | ⟨0, _⟩ => rfl | ⟨1, _⟩ => rfl | ⟨2, _⟩ => rfl | ⟨3, _⟩ => rfl | ⟨4, _⟩ => rfl | ⟨5, _⟩ => rfl

/-- `(b, hh, ww, ph, pw, c) ↦ (b, c, hh, ph, ww, pw)`: the inverse of `permK_apply`'s permutation. -/
theorem unpermK_apply (y : S6K.Idx → α) (g : S6K.Transposes [0, 5, 1, 3, 2, 4] S6) (b : Fin 4) (c : Fin 128)
    (hh : Fin 32) (ph : Fin 7) (ww : Fin 32) (pw : Fin 7) :
    transpose S6 [0, 5, 1, 3, 2, 4] y g (ix6 b c hh ph ww pw) = y (ix6 b hh ww ph pw c) :=
  transpose_apply _ y g _ _ fun a => match a with
    | ⟨0, _⟩ => rfl | ⟨1, _⟩ => rfl | ⟨2, _⟩ => rfl | ⟨3, _⟩ => rfl | ⟨4, _⟩ => rfl | ⟨5, _⟩ => rfl

/-- `(b, hh, ww, c, ph, pw) ↦ (b, c, hh, ph, ww, pw)`: the inverse of `permR_apply`'s permutation. -/
theorem unpermR_apply (y : S6R.Idx → α) (g : S6R.Transposes [0, 3, 1, 4, 2, 5] S6) (b : Fin 4) (c : Fin 128)
    (hh : Fin 32) (ph : Fin 7) (ww : Fin 32) (pw : Fin 7) :
    transpose S6 [0, 3, 1, 4, 2, 5] y g (ix6 b c hh ph ww pw) = y (ix6 b hh ww c ph pw) :=
  transpose_apply _ y g _ _ fun a => match a with
    | ⟨0, _⟩ => rfl | ⟨1, _⟩ => rfl | ⟨2, _⟩ => rfl | ⟨3, _⟩ => rfl | ⟨4, _⟩ => rfl | ⟨5, _⟩ => rfl

/-! ## The two unfolds are one another's transpose; the two folds agree on transposed stacks -/

/-- The pixel-major unfold at `(n, p, c)` and the channel-major unfold at `(n, c, p)` read the same pixel: both are the
    six-axis image at `(b, c, hh, ph, ww, pw)`, with `b = n / 1024`, `hh = n / 32 % 32`, `ww = n % 32`, `ph = p / 7`,
    `pw = p % 7`. -/
theorem unfold_swap {α : Type} (x : Simg.Idx → α) (h1 : Simg.ShapeCasts S6) (h2 : S6.Transposes [0, 2, 4, 3, 5, 1] S6K)
    (h3 : S6K.ShapeCasts SK) (h1' : Simg.ShapeCasts S6) (h2' : S6.Transposes [0, 2, 4, 1, 3, 5] S6R)
    (h3' : S6R.ShapeCasts SR) (n : Fin 4096) (p : Fin 49) (c : Fin 128) :
    shapeCast SK (transpose S6K [0, 2, 4, 3, 5, 1] (shapeCast S6 x h1) h2) h3 (ix3 n p c)
      = shapeCast SR (transpose S6R [0, 2, 4, 1, 3, 5] (shapeCast S6 x h1') h2') h3' (ix3 n c p) := by
  have hnlt := n.isLt
  have hplt := p.isLt
  let b : Fin 4 := ⟨n.val / 1024, by omega⟩
  let hh : Fin 32 := ⟨n.val / 32 % 32, by omega⟩
  let ww : Fin 32 := ⟨n.val % 32, by omega⟩
  let ph : Fin 7 := ⟨p.val / 7, by omega⟩
  let pw : Fin 7 := ⟨p.val % 7, by omega⟩
  have hn : n.val = (b.val * 32 + hh.val) * 32 + ww.val := by
    show n.val = (n.val / 1024 * 32 + n.val / 32 % 32) * 32 + n.val % 32
    omega
  have hp : p.val = ph.val * 7 + pw.val := by
    show p.val = p.val / 7 * 7 + p.val % 7
    omega
  refine (stackK_apply _ h3 n p c b hh ww ph pw hn hp).trans ?_
  refine (permK_apply _ h2 b hh ww ph pw c).trans ?_
  refine Eq.symm ?_
  refine (stackR_apply _ h3' n c p b hh ww ph pw hn hp).trans ?_
  exact permR_apply _ h2' b hh ww c ph pw

/-- Stacks that are one another's transpose on the last two axes fold to the same image: at pixel `(b, c, r, s)` both
    folds read their stack at patch `n = (b · 32 + r / 7) · 32 + s / 7`, pixel `p = (r % 7) · 7 + s % 7`, channel `c`. -/
theorem fold_swap {α : Type} (a : SK.Idx → α) (b : SR.Idx → α)
    (hab : ∀ (n : Fin 4096) (p : Fin 49) (c : Fin 128), a (ix3 n p c) = b (ix3 n c p)) (g1 : SK.ShapeCasts S6K)
    (g2 : S6K.Transposes [0, 5, 1, 3, 2, 4] S6) (g3 : S6.ShapeCasts Simg) (g1' : SR.ShapeCasts S6R)
    (g2' : S6R.Transposes [0, 3, 1, 4, 2, 5] S6) (g3' : S6.ShapeCasts Simg) :
    shapeCast Simg (transpose S6 [0, 5, 1, 3, 2, 4] (shapeCast S6K a g1) g2) g3
      = shapeCast Simg (transpose S6 [0, 3, 1, 4, 2, 5] (shapeCast S6R b g1') g2') g3' := by
  funext i
  obtain ⟨bb, c, r, s, rfl⟩ : ∃ (bb : Fin 4) (c : Fin 128) (r s : Fin 224), i = ix4 bb c r s :=
    ⟨i 0, i 1, i 2, i 3, eq_ix4 i⟩
  have hblt := bb.isLt
  have hrlt := r.isLt
  have hslt := s.isLt
  let hh : Fin 32 := ⟨r.val / 7, by omega⟩
  let ph : Fin 7 := ⟨r.val % 7, by omega⟩
  let ww : Fin 32 := ⟨s.val / 7, by omega⟩
  let pw : Fin 7 := ⟨s.val % 7, by omega⟩
  let n : Fin 4096 := ⟨(bb.val * 32 + r.val / 7) * 32 + s.val / 7, by omega⟩
  let p : Fin 49 := ⟨r.val % 7 * 7 + s.val % 7, by omega⟩
  have hr : r.val = hh.val * 7 + ph.val := by
    show r.val = r.val / 7 * 7 + r.val % 7
    omega
  have hs : s.val = ww.val * 7 + pw.val := by
    show s.val = s.val / 7 * 7 + s.val % 7
    omega
  have hn : n.val = (bb.val * 32 + hh.val) * 32 + ww.val := rfl
  have hp : p.val = ph.val * 7 + pw.val := rfl
  refine (merge_apply _ g3 bb c r s hh ph ww pw hr hs).trans ?_
  refine (unpermK_apply _ g2 bb c hh ph ww pw).trans ?_
  refine (unstackK_apply a g1 bb hh ww ph pw c n p hn hp).trans ?_
  refine Eq.symm ?_
  refine (merge_apply _ g3' bb c r s hh ph ww pw hr hs).trans ?_
  refine (unpermR_apply _ g2' bb c hh ph ww pw).trans ?_
  refine (unstackR_apply b g1' bb hh ww c ph pw n p hn hp).trans ?_
  exact (hab n p c).symm

end Cert.PatchAttn.Layout
-- ==== Proof.Algebra.lean ====
/-
  The centred covariance of a finite patch equals its product form.

  For real entries a p c, with channel means m c = (Σ_p a p c) · (1/49):
      (Σ_p (a p c − m c)(a p d − m d)) · (1/49) = (Σ_p a p c · a p d) · (1/49) − m c · m d.
  Expanding the product under the sum gives Σ a_pc a_pd − m_d Σ a_pc − m_c Σ a_pd + 49 · m_c m_d, and
  the three last terms collapse to −(Σ a_pc)(Σ a_pd)/49 because there are exactly 49 pixels.

  On the extended reals multiplication does not distribute over addition at the infinities, so the
  identity is proved for patches whose entries are all real: the real witnesses are chosen, every
  coercion is pushed outward, and the identity is finished in ℝ.
-/
import proofs.«429139_j103079215454_3_alg».proof.Proof.Spec
import Mathlib.Data.EReal.Operations
import Mathlib.Data.EReal.Inv
import Mathlib.Algebra.BigOperators.Ring.Finset
import Mathlib.Algebra.BigOperators.Group.Finset.Basic
import Mathlib.Tactic.Ring
import Mathlib.Tactic.NormNum

noncomputable section

namespace Cert.PatchAttn

open Idealize.ShloMosaic

/-- The divisor both programs spell as the float pattern of `49.0` denotes the real `49`. -/
theorem c49_eq : c49 = ((49 : ℝ) : EReal) := by
  unfold c49; simp [Ideal.ofBits, Ideal.ieee, -EReal.coe_mul]; norm_num

/-- The coercion of the reals into the extended reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The covariance identity over the reals, for 49 samples. -/
theorem real_cov (x y : Fin 49 → ℝ) :
    (∑ p, (x p - (∑ q, x q) * (1 / 49)) * (y p - (∑ q, y q) * (1 / 49))) * (1 / 49)
      = (∑ p, x p * y p) * (1 / 49) - ((∑ q, x q) * (1 / 49)) * ((∑ q, y q) * (1 / 49)) := by
  set sx : ℝ := ∑ q, x q with hsx
  set sy : ℝ := ∑ q, y q with hsy
  have h : ∀ p, (x p - sx * (1 / 49)) * (y p - sy * (1 / 49))
      = x p * y p - (sy * (1 / 49)) * x p - (sx * (1 / 49)) * y p + (sx * (1 / 49)) * (sy * (1 / 49)) := by
    intro p; ring
  rw [Finset.sum_congr rfl (fun p _ => h p), Finset.sum_add_distrib, Finset.sum_sub_distrib,
    Finset.sum_sub_distrib, ← Finset.mul_sum, ← Finset.mul_sum, Finset.sum_const, Finset.card_univ,
    Fintype.card_fin, ← hsx, ← hsy, nsmul_eq_mul]
  push_cast
  ring

/-- The mean of a real channel is the real mean. -/
theorem mu_coe (r : Fin 49 → Fin 128 → ℝ) (c : Fin 128) :
    mu (fun p c => (r p c : EReal)) c = (((∑ p, r p c) * (1 / 49) : ℝ) : EReal) := by
  unfold mu
  rw [c49_eq, Ideal.div_coe (by norm_num : (49 : ℝ) ≠ 0), ← coe_finset_sum, ← EReal.coe_mul]

/-- The Gram entry of two real channels is the real inner product. -/
theorem gram_coe (r : Fin 49 → Fin 128 → ℝ) (c d : Fin 128) :
    gram (fun p c => (r p c : EReal)) c d = ((∑ p, r p c * r p d : ℝ) : EReal) := by
  unfold gram
  rw [coe_finset_sum]
  exact Finset.sum_congr rfl (fun p _ => (EReal.coe_mul _ _).symm)

/-- On a patch of real entries the centred covariance equals the product form. -/
theorem covRef_eq_cov (a : Patch) (hfin : ∀ p c, ∃ r : ℝ, a p c = (r : EReal)) (c d : Fin 128) :
    covRef a c d = cov a c d := by
  choose r hr using hfin
  obtain rfl : a = fun p c => (r p c : EReal) := funext fun p => funext fun c => hr p c
  unfold covRef cov inv49
  rw [gram_coe, mu_coe, mu_coe, c49_eq, Ideal.div_coe (by norm_num : (49 : ℝ) ≠ 0)]
  have hs : (∑ p : Fin 49, ((r p c : EReal) - (((∑ q, r q c) * (1 / 49) : ℝ) : EReal))
        * ((r p d : EReal) - (((∑ q, r q d) * (1 / 49) : ℝ) : EReal)))
      = ((∑ p : Fin 49, (r p c - (∑ q, r q c) * (1 / 49)) * (r p d - (∑ q, r q d) * (1 / 49)) : ℝ) : EReal) := by
    rw [coe_finset_sum]
    refine Finset.sum_congr rfl (fun p _ => ?_)
    rw [← EReal.coe_sub, ← EReal.coe_sub, ← EReal.coe_mul]
  rw [hs, ← EReal.coe_mul, ← EReal.coe_mul, ← EReal.coe_mul, ← EReal.coe_sub]
  exact congrArg _ (real_cov (fun p => r p c) (fun p => r p d))

/-- Hence the two mixing matrices agree on a patch of real entries. -/
theorem comboRef_eq_combo (a : Patch) (hfin : ∀ p c, ∃ r : ℝ, a p c = (r : EReal)) (c d : Fin 128) :
    comboRef a c d = combo a c d := by
  unfold comboRef combo
  rw [covRef_eq_cov a hfin c d]

/-- The channel-major recombination is the pixel-major one: the factors of each product commute and the
    mixing matrices agree. -/
theorem ecRef_eq_ec (a : Patch) (hfin : ∀ p c, ∃ r : ℝ, a p c = (r : EReal)) (c : Fin 128) (p : Fin 49) :
    ecRef a c p = ec a p c := by
  unfold ecRef ec
  refine Finset.sum_congr rfl (fun d _ => ?_)
  rw [comboRef_eq_combo a hfin c d, mul_comm]

end Cert.PatchAttn

end
-- ==== Proof.Bridge.lean ====
/-
  The reference's four results are the kernel's, as functions of a finite image and `β`.

  Both programs unfold the image into the same 4096 patches, the kernel pixel-major and the reference channel-major:
  the two stacks are each other's transpose on the last two axes, so patch `n` is one 49 × 128 matrix on both sides
  (`patch_eq`). On that matrix the row softmax is the same expression; the covariance is the product form in the kernel
  and the centred form in the reference, equal because every entry is a real number (the image is finite and every entry
  of a patch is an entry of the image); the recombination differs only in the order of each product's factors. The two
  folds send stacks that are each other's transpose to one image, and the remaining host lines are the same on both
  sides.
-/
import proofs.«429139_j103079215454_3_alg».proof.Proof.KernelOut
import proofs.«429139_j103079215454_3_alg».proof.Proof.RefValue
import proofs.«429139_j103079215454_3_alg».proof.Proof.Layout
import proofs.«429139_j103079215454_3_alg».proof.Proof.Algebra

noncomputable section

namespace Cert.Bridge

open Idealize.ShloMosaic Idealize.ShloMosaic.ValueIdx Cert.PatchAttn
open Cert.KernelIdeal.KValue Cert.ReferenceIdeal.Read Cert.ReferenceIdeal.RefValue

/-- The image, typed for either program (their shape names abbreviate the same literal shape). -/
abbrev Img : Type := FVec Ideal Cert.KernelIdeal.S4x128x224x224 .f32

/-- Patch `n` is the same matrix in the kernel's pixel-major stack and the reference's channel-major one. -/
theorem patch_eq (X : Img) (n : Fin 4096) :
    patchOf (N := 4096) (unfoldK X) n = patchOfT (N := 4096) (val_main_v2 (F := Ideal) X) n := by
  funext p c
  exact Layout.unfold_swap X _ _ _ _ _ _ n p c

/-- Every entry of a patch of a finite image is a real number: it is an entry of the image. -/
theorem patch_fin (X : Img) (hfin : ∀ i, ∃ r : ℝ, X i = (r : EReal)) (n : Fin 4096) :
    ∀ p c, ∃ r : ℝ, patchOf (N := 4096) (unfoldK X) n p c = (r : EReal) := by
  intro p c
  unfold patchOf unfoldK shapeCast transpose
  exact hfin _

theorem sc_eq (X : Img) : scArr (N := 4096) (unfoldK X) = val_main_v14 (F := Ideal) X := by
  rw [ref_sc]
  funext i
  obtain ⟨n, c, d, rfl⟩ : ∃ (n : Fin 4096) (c d : Fin 128), i = ix3 n c d := ⟨i 0, i 1, i 2, eq_ix3 i⟩
  show sc (patchOf (N := 4096) (unfoldK X) n) c d = sc (patchOfT (N := 4096) (val_main_v2 (F := Ideal) X) n) c d
  rw [patch_eq]

theorem cov_eq (X : Img) (hfin : ∀ i, ∃ r : ℝ, X i = (r : EReal)) : covArr (N := 4096) (unfoldK X) = val_main_v23 (F := Ideal) X := by
  rw [ref_cov]
  funext i
  obtain ⟨n, c, d, rfl⟩ : ∃ (n : Fin 4096) (c d : Fin 128), i = ix3 n c d := ⟨i 0, i 1, i 2, eq_ix3 i⟩
  show cov (patchOf (N := 4096) (unfoldK X) n) c d = covRef (patchOfT (N := 4096) (val_main_v2 (F := Ideal) X) n) c d
  rw [← patch_eq]
  exact (covRef_eq_cov _ (patch_fin X hfin n) c d).symm

theorem ec_eq (X : Img) (hfin : ∀ i, ∃ r : ℝ, X i = (r : EReal)) (n : Fin 4096) (p : Fin 49) (c : Fin 128) :
    ecArr (N := 4096) (unfoldK X) (ix3 n p c) = val_main_v27 (F := Ideal) X (ix3 n c p) := by
  rw [ref_ec]
  show ec (patchOf (N := 4096) (unfoldK X) n) p c = ecRef (patchOfT (N := 4096) (val_main_v2 (F := Ideal) X) n) c p
  rw [← patch_eq]
  exact (ecRef_eq_ec _ (patch_fin X hfin n) c p).symm

theorem outEc_eq (X : Img) (hfin : ∀ i, ∃ r : ℝ, X i = (r : EReal)) : outEc X = val_main_v30 (F := Ideal) X := by
  unfold outEc val_main_v30 val_main_v29 val_main_v28
  exact Layout.fold_swap _ _ (ec_eq X hfin) _ _ _ _ _ _

theorem outSc_eq (X : Img) : outSc X = val_main_v36 (F := Ideal) X := by
  unfold outSc val_main_v36
  rw [sc_eq]

theorem outCov_eq (X : Img) (hfin : ∀ i, ∃ r : ℝ, X i = (r : EReal)) : outCov X = val_main_v37 (F := Ideal) X := by
  unfold outCov val_main_v37
  rw [cov_eq X hfin]

theorem outMain_eq (X : Img) (B : FVec Ideal Cert.KernelIdeal.S1 .f32) (hfin : ∀ i, ∃ r : ℝ, X i = (r : EReal)) :
    outMain X B (outEc X) = val_main_v35 (F := Ideal) X B := by
  rw [outEc_eq X hfin]
  rfl

end Cert.Bridge

end
-- ==== Proof.Finite.lean ====
/-
  The finiteness precondition, read back.

  The precondition is the conjunction of two whole-array tests, `all (|x| < +∞)` and `all (|β| < +∞)`.
  If it holds, every entry of `x` has `|x i| < ⊤`, where `|v| = max v (−v)`. An extended real is `⊥`,
  `⊤` or a real: at `⊤` the maximum is `⊤`, at `⊥` it is `−⊥ = ⊤`, and `⊤ < ⊤` is false; so the entry is a
  real.
-/
import proofs.«429139_j103079215454_3_alg».proof.Pre_finite_inputs
import proofs.«429139_j103079215454_3_alg».proof.Proof.Gen.Pre_finite_inputs
import Idealize.ShloMosaic.Lib.ReduceAll
import Idealize.ShloMosaic.Lib.ValueIdx
import Idealize.ShloMosaic.PureOps.Ideal.Laws

noncomputable section

namespace Cert.PatchAttn.Finite

open Idealize.ShloMosaic

/-- The float pattern of `+∞` denotes `⊤`. -/
theorem ofBits_inf : Ideal.ofBits .f32 0x7F800000#32 = (⊤ : EReal) := by
  simp [Ideal.ofBits, Ideal.ieee]

/-- An extended real whose absolute value `max v (−v)` is below `⊤` is a real. -/
theorem real_of_abs_lt_top (v : EReal) (hv : max v (-v) < ⊤) : ∃ r : ℝ, v = (r : EReal) := by
  induction v using EReal.rec with
  | bot => simp at hv
  | coe r => exact ⟨r, rfl⟩
  | top => simp at hv

/-- Under the finiteness precondition every entry of `x` is a real. -/
theorem finite_of_pre (x : FVec Ideal Cert.Pre_finite_inputs.S4x128x224x224 .f32)
    (β : FVec Ideal Cert.Pre_finite_inputs.S1 .f32)
    (h : Cert.Pre_finite_inputs.fn (F := Ideal) x β = fun _ => 1#1) : ∀ i, ∃ r : ℝ, x i = (r : EReal) := by
  intro i
  have h0 := congrFun h ValueIdx.ix0
  dsimp only [Cert.Pre_finite_inputs.fn] at h0
  obtain ⟨hx, _⟩ := IntOp.andi_eq_one.1 h0
  haveI : Subsingleton Cert.Pre_finite_inputs.S_.Idx := ⟨fun a b => funext fun d => d.elim0⟩
  have hi := Host.reduce_andi_all _ _ _ _ _ hx i
  have hc : Ideal.cmp .olt (max (x i) (-(x i))) (Ideal.ofBits .f32 0x7F800000#32) = 1#1 := hi
  rw [ofBits_inf] at hc
  have hlt : max (x i) (-(x i)) < ⊤ := by
    by_contra hn
    simp [Ideal.cmp, hn] at hc
  exact real_of_abs_lt_top _ hlt

end Cert.PatchAttn.Finite

end
-- ==== Proof.lean ====
/-
  The kernel computes, for each non-overlapping 7 × 7 patch of a [4, 128, 224, 224] image (49 pixels by 128 channels),
  the row softmax of the channels' Gram matrix, the channels' covariance and the patch recombined through
  `softmax + ½ · covariance`, then folds the recombined patches back to an image `E` and returns
  `x · (β · E + x)`, the two [4, 1024, 128, 128] matrices and `E`. The reference does the same with the patches laid out
  channel-major and the covariance in centred form, `Σ_p (a_pc − μ_c)(a_pd − μ_d) / 49`, where the kernel uses the
  product form `(Σ_p a_pc a_pd) · (1/49) − μ_c μ_d` with the reciprocal `1/49` a named constant.

  The three frames are the generated ones (the reference's is its run with the results dropped). `preserves` is the one
  ledger entry: the table gives `"inv_49"` the value `1/49`. `algebraic`: the kernel's run with its four results named
  as functions of the arguments (Proof/KernelValue.lean), the reference's run read stage by stage
  (Proof/RefValue.lean), and the equality of the two sets of functions on a finite image (Proof/Bridge.lean: the two
  unfolds are transposes of each other, the two covariance forms agree on real entries, the products commute), the
  image being finite by the precondition (Proof/Finite.lean).
-/
import proofs.«429139_j103079215454_3_alg».proof.Defs
import proofs.«429139_j103079215454_3_alg».proof.Proof.Gen.Kernel
import proofs.«429139_j103079215454_3_alg».proof.Proof.Gen.Kernel.Skeleton
import proofs.«429139_j103079215454_3_alg».proof.Proof.Gen.Kernel.Launch
import proofs.«429139_j103079215454_3_alg».proof.Proof.Gen.Kernel.Points
import proofs.«429139_j103079215454_3_alg».proof.Proof.Gen.Kernel.Frame
import proofs.«429139_j103079215454_3_alg».proof.Proof.Gen.KernelIdeal
import proofs.«429139_j103079215454_3_alg».proof.Proof.Gen.KernelIdeal.Skeleton
import proofs.«429139_j103079215454_3_alg».proof.Proof.Gen.KernelIdeal.Launch
import proofs.«429139_j103079215454_3_alg».proof.Proof.Gen.KernelIdeal.Points
import proofs.«429139_j103079215454_3_alg».proof.Proof.Gen.KernelIdeal.Frame
import proofs.«429139_j103079215454_3_alg».proof.Proof.Gen.ReferenceIdeal
import proofs.«429139_j103079215454_3_alg».proof.Proof.Gen.ReferenceIdeal.Run
import proofs.«429139_j103079215454_3_alg».proof.Proof.Gen.ReferenceIdeal.Read
import proofs.«429139_j103079215454_3_alg».proof.Proof.Gen.Pre_finite_inputs
import proofs.«429139_j103079215454_3_alg».proof.Proof.KernelValue
import proofs.«429139_j103079215454_3_alg».proof.Proof.Bridge
import proofs.«429139_j103079215454_3_alg».proof.Proof.Finite
import Idealize.ShloMosaic.Adequacy
import Idealize.ShloMosaic.Init

noncomputable section

namespace Cert.Proof

open Idealize.ShloMosaic Idealize.SL.Sem Cert.KernelIdeal.KValue

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The ledger's one entry: the table gives `"inv_49"` the value `1/49`. -/
theorem preserves : Cert.preserves_Kernel_KernelIdeal :=
  IdealRules.named_const.statement Cert.KernelIdeal.κ "inv_49" .f32 0x3CA72F05#32 ((1 / 49 : ℝ) : EReal) rfl

/-- Both idealized programs end with the same four results: the kernel's are named functions of the arguments, and the
    reference's stages equal them on a finite image. -/
theorem algebraic : Cert.algebraic_KernelIdeal_ReferenceIdeal := by
  intro m ρ m' ρ' hpre hagree
  have hfin : ∀ c : Dev Cert.KernelIdeal.nD, ∀ i,
      ∃ r : ℝ, m ((c.tc : Thread Cert.KernelIdeal.nD Cert.KernelIdeal.τ).loc Cert.KernelIdeal.main_arg0) i = (r : EReal) :=
    fun c => Cert.PatchAttn.Finite.finite_of_pre _ _ (hpre c)
  refine ⟨fun c => outMain (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (outEc (m ((c.tc : Thread Cert.KernelIdeal.nD Cert.KernelIdeal.τ).loc Cert.KernelIdeal.main_arg0))),
    fun c => outSc (m ((c.tc : Thread Cert.KernelIdeal.nD Cert.KernelIdeal.τ).loc Cert.KernelIdeal.main_arg0)),
    fun c => outCov (m ((c.tc : Thread Cert.KernelIdeal.nD Cert.KernelIdeal.τ).loc Cert.KernelIdeal.main_arg0)),
    fun c => outEc (m ((c.tc : Thread Cert.KernelIdeal.nD Cert.KernelIdeal.τ).loc Cert.KernelIdeal.main_arg0)),
    Cert.KernelIdeal.KValue.run_value m ρ, ?_⟩
  refine (θ_run Cert.ReferenceIdeal.defs _ _).mono (fun _ h c =>
    ⟨(h c).1.trans ?_, (h c).2.1.trans ?_, (h c).2.2.1.trans ?_, (h c).2.2.2.1.trans ?_, (h c).2.2.2.2⟩)
    (Cert.ReferenceIdeal.Value.run (F := Ideal) m' ρ')
  · rw [Cert.ReferenceIdeal.Read.val_main_v35_eq, (hagree c).1, (hagree c).2]
    exact (Cert.Bridge.outMain_eq _ _ (hfin c)).symm
  · refine (Cert.ReferenceIdeal.Read.val_main_v36_eq _).trans ?_
    rw [(hagree c).1]
    exact (Cert.Bridge.outSc_eq _).symm
  · refine (Cert.ReferenceIdeal.Read.val_main_v37_eq _).trans ?_
    rw [(hagree c).1]
    exact (Cert.Bridge.outCov_eq _ (hfin c)).symm
  · rw [Cert.ReferenceIdeal.Read.val_main_v30_eq, (hagree c).1]
    exact (Cert.Bridge.outEc_eq _ (hfin c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
